-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S_ : Shape := ⟨0, ![]⟩

class Facts : Prop where
  bcast_S_S30000x41 : S_.BroadcastsInDim S30000x41 (![] : Fin 0 → Fin S30000x41.rank)
  reducesTo_S30000x41_S_d0_1 : S30000x41.ReducesTo [0, 1] S_
  h_S_ : 0 < S_.numel
  bcast_S_S240000x4 : S_.BroadcastsInDim S240000x4 (![] : Fin 0 → Fin S240000x4.rank)
  reducesTo_S240000x4_S_d0_1 : S240000x4.ReducesTo [0, 1] S_
  bcast_S_S512x38 : S_.BroadcastsInDim S512x38 (![] : Fin 0 → Fin S512x38.rank)
  reducesTo_S512x38_S_d0_1 : S512x38.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512x512 .f32) (main_arg6 : FVec F S512x512 .f32) (main_arg7 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S30000x41 .f32) (main_arg1 : IVec S2x240000 32) (main_arg2 : FVec F S240000x4 .f32) (main_arg3 : FVec F S512x38 .f32) (main_arg4 : FVec F S512 .f32) (main_arg5 : FVec F S512x512 .f32) (main_arg6 : FVec F S512x512 .f32) (main_arg7 : FVec F S512x512 .f32) : IVec S_ 1 :=
  let main_v0 : FVec F S30000x41 .f32 := Host.absf main_arg0
  let main_cst : FVec F S_ .f32 := constant S_ .f32 0x7F800000#32
  let main_v1 : FVec F S30000x41 .f32 := broadcastInDim S30000x41 ![] bcast_S_S30000x41 main_cst
  let main_v2 : IVec S30000x41 1 := cmpf .olt main_v0 main_v1
  let main_c : IVec S_ 1 := constantI S_ 1 1#1
  let main_v3 : IVec S_ 1 := (fun x v => Host.reduce IntOp.andi x v reducesTo_S30000x41_S_d0_1 h_S_) main_v2 main_c
  let main_v4 : FVec F S240000x4 .f32 := Host.absf main_arg2
  let main_cst_0 : FVec F S_ .f32 := constant S_ .f32 0x7F800000#32
  let main_v5 : FVec F S240000x4 .f32 := broadcastInDim S240000x4 ![] bcast_S_S240000x4 main_cst_0
  let main_v6 : IVec S240000x4 1 := cmpf .olt main_v4 main_v5
  let main_c_1 : IVec S_ 1 := constantI S_ 1 1#1
  let main_v7 : IVec S_ 1 := (fun x v => Host.reduce IntOp.andi x v reducesTo_S240000x4_S_d0_1 h_S_) main_v6 main_c_1
  let main_v8 : IVec S_ 1 := andi main_v3 main_v7
  let main_v9 : FVec F S512x38 .f32 := Host.absf main_arg3
  let main_cst_2 : FVec F S_ .f32 := constant S_ .f32 0x7F800000#32
  let main_v10 : FVec F S512x38 .f32 := broadcastInDim S512x38 ![] bcast_S_S512x38 main_cst_2
  let main_v11 : IVec S512x38 1 := cmpf .olt main_v9 main_v10
  let main_c_3 : IVec S_ 1 := constantI S_ 1 1#1
  let main_v12 : IVec S_ 1 := (fun x v => Host.reduce IntOp.andi x v reducesTo_S512x38_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S1x240000 : Shape := ⟨2, ![1, 240000]⟩
abbrev S240000 : Shape := ⟨1, ![240000]⟩
abbrev S240000x1 : Shape := ⟨2, ![240000, 1]⟩
abbrev S_ : Shape := ⟨0, ![]⟩
abbrev S30000x38 : Shape := ⟨2, ![30000, 38]⟩
abbrev S38x512 : Shape := ⟨2, ![38, 512]⟩
abbrev S1x512 : Shape := ⟨2, ![1, 512]⟩
abbrev S30000x512 : Shape := ⟨2, ![30000, 512]⟩
abbrev S1000x38 : Shape := ⟨2, ![1000, 38]⟩
abbrev S1000x512 : Shape := ⟨2, ![1000, 512]⟩
abbrev S30000 : Shape := ⟨1, ![30000]⟩
abbrev S240000x512 : Shape := ⟨2, ![240000, 512]⟩

abbrev nBuf : Space → Nat
  | .hbm => 111
  | .vmem => 27
  | .smem => 0
  | _ => 0

abbrev bufTy : (tb : Table) → Fin (tcTables nBuf tb) → BufTy
  | .hbm, ⟨0, _⟩ => ⟨S30000x41, .f32⟩
  | .hbm, ⟨1, _⟩ => ⟨S2x240000, .i32⟩
  | .hbm, ⟨2, _⟩ => ⟨S240000x4, .f32⟩
  | .hbm, ⟨3, _⟩ => ⟨S512x38, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1x240000, .i32⟩
  | .hbm, ⟨9, _⟩ => ⟨S240000, .i32⟩
  | .hbm, ⟨10, _⟩ => ⟨S1x240000, .i32⟩
  | .hbm, ⟨11, _⟩ => ⟨S240000, .i32⟩
  | .hbm, ⟨12, _⟩ => ⟨S240000x1, .f32⟩
  | .hbm, ⟨13, _⟩ => ⟨S240000, .f32⟩
  | .hbm, ⟨14, _⟩ => ⟨S_, .f32⟩
  | .hbm, ⟨15, _⟩ => ⟨S240000, .f32⟩
  | .hbm, ⟨16, _⟩ => ⟨S240000, .f32⟩
  | .hbm, ⟨17, _⟩ => ⟨S30000x38, .f32⟩
  | .hbm, ⟨18, _⟩ => ⟨S38x512, .f32⟩
  | .hbm, ⟨19, _⟩ => ⟨S1x512, .f32⟩
  | .hbm, ⟨20, _⟩ => ⟨S30000x512, .f32⟩
  | .hbm, ⟨21, _⟩ => ⟨S_, .f32⟩
  | .hbm, ⟨22, _⟩ => ⟨S30000, .f32⟩
  | .hbm, ⟨23, _⟩ => ⟨S240000x1, .i32⟩
  | .hbm, ⟨24, _⟩ => ⟨S30000, .f32⟩
  | .hbm, ⟨25, _⟩ => ⟨S_, .f32⟩
  | .hbm, ⟨26, _⟩ => ⟨S30000, .f32⟩
  | .hbm, ⟨27, _⟩ => ⟨S30000, .i1⟩
  | .hbm, ⟨28, _⟩ => ⟨S_, .f32⟩
  | .hbm, ⟨29, _⟩ => ⟨S_, .f32⟩
  | .hbm, ⟨30, _⟩ => ⟨S30000, .f32⟩
  | .hbm, ⟨31, _⟩ => ⟨S30000, .f32⟩
  | .hbm, ⟨32, _⟩ => ⟨S_, .f32⟩
  | .hbm, ⟨33, _⟩ => ⟨S30000, .f32⟩
  | .hbm, ⟨34, _⟩ => ⟨S30000, .i1⟩
  | .hbm, ⟨35, _⟩ => ⟨S30000, .f32⟩
  | .hbm, ⟨36, _⟩ => ⟨S_, .f32⟩
  | .hbm, ⟨37, _⟩ => ⟨S_, .f32⟩
  | .hbm, ⟨38, _⟩ => ⟨S30000, .f32⟩
  | .hbm, ⟨39, _⟩ => ⟨S30000, .f32⟩
  | .hbm, ⟨40, _⟩ => ⟨S_, .i32⟩
  | .hbm, ⟨41, _⟩ => ⟨S240000, .i32⟩
  | .hbm, ⟨42, _⟩ => ⟨S240000, .i1⟩
  | .hbm, ⟨43, _⟩ => ⟨S_, .i32⟩
  | .hbm, ⟨44, _⟩ => ⟨S240000, .i32⟩
  | .hbm, ⟨45, _⟩ => ⟨S240000, .i32⟩
  | .hbm, ⟨46, _⟩ => ⟨S240000, .i32⟩
  | .hbm, ⟨47, _⟩ => ⟨S240000x1, .i32⟩
  | .hbm, ⟨48, _⟩ => ⟨S240000, .f32⟩
  | .hbm, ⟨49, _⟩ => ⟨S240000, .f32⟩
  | .hbm, ⟨50, _⟩ => ⟨S_, .i32⟩
  | .hbm, ⟨51, _⟩ => ⟨S240000, .i32⟩
  | .hbm, ⟨52, _⟩ => ⟨S240000, .i1⟩
  | .hbm, ⟨53, _⟩ => ⟨S_, .i32⟩
  | .hbm, ⟨54, _⟩ => ⟨S240000, .i32⟩
  | .hbm, ⟨55, _⟩ => ⟨S240000, .i32⟩
  | .hbm, ⟨56, _⟩ => ⟨S240000, .i32⟩
  | .hbm, ⟨57, _⟩ => ⟨S240000x1, .i32⟩
  | .hbm, ⟨58, _⟩ => ⟨S240000, .f32⟩
  | .hbm, ⟨59, _⟩ => ⟨S240000, .f32⟩
  | .hbm, ⟨60, _⟩ => ⟨S_, .i32⟩
  | .hbm, ⟨61, _⟩ => ⟨S240000, .i32⟩
  | .hbm, ⟨62, _⟩ => ⟨S240000, .i1⟩
  | .hbm, ⟨63, _⟩ => ⟨S_, .i32⟩
  | .hbm, ⟨64, _⟩ => ⟨S240000, .i32⟩
  | .hbm, ⟨65, _⟩ => ⟨S240000, .i32⟩
  | .hbm, ⟨66, _⟩ => ⟨S240000, .i32⟩
  | .hbm, ⟨67, _⟩ => ⟨S240000x1, .i32⟩
  | .hbm, ⟨68, _⟩ => ⟨S240000x512, .f32⟩
  | .hbm, ⟨69, _⟩ => ⟨S240000x1, .f32⟩
  | .hbm, ⟨70, _⟩ => ⟨S240000x512, .f32⟩
  | .hbm, ⟨71, _⟩ => ⟨S240000x512, .f32⟩
  | .hbm, ⟨72, _⟩ => ⟨S_, .f32⟩
  | .hbm, ⟨73, _⟩ => ⟨S30000x512, .f32⟩
  | .hbm, ⟨74, _⟩ => ⟨S240000x1, .i32⟩
  | .hbm, ⟨75, _⟩ => ⟨S30000x512, .f32⟩
  | .hbm, ⟨76, _⟩ => ⟨S30000x512, .f32⟩
  | .hbm, ⟨77, _⟩ => ⟨S_, .i32⟩
  | .hbm, ⟨78, _⟩ => ⟨S240000, .i32⟩
  | .hbm, ⟨79, _⟩ => ⟨S240000, .i1⟩
  | .hbm, ⟨80, _⟩ => ⟨S_, .i32⟩
  | .hbm, ⟨81, _⟩ => ⟨S240000, .i32⟩
  | .hbm, ⟨82, _⟩ => ⟨S240000, .i32⟩
  | .hbm, ⟨83, _⟩ => ⟨S240000, .i32⟩
  | .hbm, ⟨84, _⟩ => ⟨S240000x1, .i32⟩
  | .hbm, ⟨85, _⟩ => ⟨S240000x512, .f32⟩
  | .hbm, ⟨86, _⟩ => ⟨S240000x1, .f32⟩
  | .hbm, ⟨87, _⟩ => ⟨S240000x512, .f32⟩
  | .hbm, ⟨88, _⟩ => ⟨S240000x512, .f32⟩
  | .hbm, ⟨89, _⟩ => ⟨S_, .f32⟩
  | .hbm, ⟨90, _⟩ => ⟨S30000x512, .f32⟩
  | .hbm, ⟨91, _⟩ => ⟨S240000x1, .i32⟩
  | .hbm, ⟨92, _⟩ => ⟨S30000x512, .f32⟩
  | .hbm, ⟨93, _⟩ => ⟨S30000x512, .f32⟩
  | .hbm, ⟨94, _⟩ => ⟨S_, .i32⟩
  | .hbm, ⟨95, _⟩ => ⟨S240000, .i32⟩
  | .hbm, ⟨96, _⟩ => ⟨S240000, .i1⟩
  | .hbm, ⟨97, _⟩ => ⟨S_, .i32⟩
  | .hbm, ⟨98, _⟩ => ⟨S240000, .i32⟩
  | .hbm, ⟨99, _⟩ => ⟨S240000, .i32⟩
  | .hbm, ⟨100, _⟩ => ⟨S240000, .i32⟩
  | .hbm, ⟨101, _⟩ => ⟨S240000x1, .i32⟩
  | .hbm, ⟨102, _⟩ => ⟨S240000x512, .f32⟩
  | .hbm, ⟨103, _⟩ => ⟨S240000x1, .f32⟩
  | .hbm, ⟨104, _⟩ => ⟨S240000x512, .f32⟩
  | .hbm, ⟨105, _⟩ => ⟨S240000x512, .f32⟩
  | .hbm, ⟨106, _⟩ => ⟨S_, .f32⟩
  | .hbm, ⟨107, _⟩ => ⟨S30000x512, .f32⟩
  | .hbm, ⟨108, _⟩ => ⟨S240000x1, .i32⟩
  | .hbm, ⟨109, _⟩ => ⟨S30000x512, .f32⟩
  | .hbm, ⟨110, _⟩ => ⟨S30000x512, .f32⟩
  | .local _ .vmem, ⟨0, _⟩ => ⟨S1000x38, .f32⟩
  | .local _ .vmem, ⟨1, _⟩ => ⟨S1000x38, .f32⟩
  | .local _ .vmem, ⟨2, _⟩ => ⟨S38x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S512x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S512x512, .f32⟩
  | .local _ .vmem, ⟨18, _⟩ => ⟨S1000x512, .f32⟩
  | .local _ .vmem, ⟨19, _⟩ => ⟨S1000x512, .f32⟩
  | .local _ .vmem, ⟨20, _⟩ => ⟨S1000x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S512x512, .f32⟩
  | .local _ .vmem, ⟨25, _⟩ => ⟨S1000x512, .f32⟩
  | .local _ .vmem, ⟨26, _⟩ => ⟨S1000x512, .f32⟩
  | _, _ => ⟨S30000x41, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x38 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S38x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  slices_S240000x4_S240000x1_0_3 : S240000x4.Slices ![0, 3] S240000x1
  shapeCasts_S240000x1_S240000 : S240000x1.ShapeCasts S240000
  bcast_S_S240000 : S_.BroadcastsInDim S240000 (![] : Fin 0 → Fin S240000.rank)
  slices_S30000x41_S30000x38_0_0 : S30000x41.Slices ![0, 0] S30000x38
  transposes_S512x38_S38x512_1_0 : S512x38.Transposes [1, 0] S38x512
  shapeCasts_S512_S1x512 : S512.ShapeCasts S1x512
  inb_S1000x38_S1000x38_0_0 : ∀ a, (![0, 0] : Fin 2 → Nat) a + S1000x38.size a ≤ S1000x38.size a
  h_S1000x38 : 0 < S1000x38.numel
  shapeCasts_S1000x38_S1000x38 : S1000x38.ShapeCasts S1000x38
  bitsLt_bf16_f32 : FTy.bits .bf16 < FTy.bits .f32
  inb_S38x512_S38x512_0_0 : ∀ a, (![0, 0] : Fin 2 → Nat) a + S38x512.size a ≤ S38x512.size a
  h_S38x512 : 0 < S38x512.numel
  shapeCasts_S38x512_S38x512 : S38x512.ShapeCasts S38x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S30000 : S_.BroadcastsInDim S30000 (![] : Fin 0 → Fin S30000.rank)
  bcast_S240000_S240000x1_0 : S240000.BroadcastsInDim S240000x1 (![0] : Fin 1 → Fin S240000x1.rank)
  bcast_S240000x1_S240000x512_0_1 : S240000x1.BroadcastsInDim S240000x512 (![0, 1] : Fin 2 → Fin S240000x512.rank)
  bcast_S_S30000x512 : S_.BroadcastsInDim S30000x512 (![] : Fin 0 → Fin S30000x512.rank)
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  dot_S1000x38_S38x512_S1000x512_1_0_0_1_n_n_wf : DotDims.WF S1000x38 S38x512 S1000x512 [1] [0] [0] [1] [] []
  scatter_S30000_S240000x1_S240000_n_0_0_1_wf : ScatterDims.WF S30000 S240000x1 S240000 [] [0] [0] 1
  gather_S30000_S240000x1_S240000_n_0_n_n_0_1_1_wf : GatherDims.WF S30000 S240000x1 S240000 [] [0] [] [0] [] 1 ![1]
  gather_S30000x512_S240000x1_S240000x512_1_0_n_n_0_1_1512_wf : GatherDims.WF S30000x512 S240000x1 S240000x512 [1] [0] [] [0] [] 1 ![1, 512]
  scatter_S30000x512_S240000x1_S240000x512_1_0_0_1_wf : ScatterDims.WF S30000x512 S240000x1 S240000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x38.size a ≤ S30000x38.size a
  hwx0_0 : ∀ i : grid0.Coords, EltTy.bits .f32 = 32 ∨ (Rect.block (s := S30000x38) S1000x38.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S38x512.size a ≤ S38x512.size a
  hwx0_1 : ∀ i : grid0.Coords, EltTy.bits .f32 = 32 ∨ (Rect.block (s := S38x512) S38x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S30000x512.size a
  hwx0_3 : ∀ i : grid0.Coords, EltTy.bits .f32 = 32 ∨ (Rect.block (s := S30000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S30000x512.size a
  hwx1_0 : ∀ i : grid1.Coords, EltTy.bits .f32 = 32 ∨ (Rect.block (s := S30000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S30000x512.size a
  hwx1_1 : ∀ i : grid1.Coords, EltTy.bits .f32 = 32 ∨ (Rect.block (s := S30000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S30000x512.size a
  hwx1_3 : ∀ i : grid1.Coords, EltTy.bits .f32 = 32 ∨ (Rect.block (s := S30000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S30000x512.size a
  hwx2_0 : ∀ i : grid2.Coords, EltTy.bits .f32 = 32 ∨ (Rect.block (s := S30000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x512.size a ≤ S30000x512.size a
  hwx2_1 : ∀ i : grid2.Coords, EltTy.bits .f32 = 32 ∨ (Rect.block (s := S30000x512) S1000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x512.size a ≤ S30000x512.size a
  hwx2_3 : ∀ i : grid2.Coords, EltTy.bits .f32 = 32 ∨ (Rect.block (s := S30000x512) S1000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S30000x512.size a
  hwx3_0 : ∀ i : grid3.Coords, EltTy.bits .f32 = 32 ∨ (Rect.block (s := S30000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x512.size a ≤ S30000x512.size a
  hwx3_1 : ∀ i : grid3.Coords, EltTy.bits .f32 = 32 ∨ (Rect.block (s := S30000x512) S1000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S30000x512.size a
  hwx3_3 : ∀ i : grid3.Coords, EltTy.bits .f32 = 32 ∨ (Rect.block (s := S30000x512) S1000x512.size (cc3_transform_3 i) (hinb3_3 i)).WholeWords (EltTy.packing .f32)

variable [Facts₀]

def dot_S1000x38_S38x512_S1000x512_1_0_0_1_n_n : DotDims S1000x38 S38x512 S1000x512 where
  lhsContracting := [1]
  rhsContracting := [0]
  lhsNonContracting := [0]
  rhsNonContracting := [1]
  lhsBatch := []
  rhsBatch := []
  wf := dot_S1000x38_S38x512_S1000x512_1_0_0_1_n_n_wf
def scatter_S30000_S240000x1_S240000_n_0_0_1 : ScatterDims S30000 S240000x1 S240000 where
  updateWindowDims := []
  insertedWindowDims := [0]
  scatterDimsToOperandDims := [0]
  indexVectorDim := 1
  wf := scatter_S30000_S240000x1_S240000_n_0_0_1_wf
def gather_S30000_S240000x1_S240000_n_0_n_n_0_1_1 : GatherDims S30000 S240000x1 S240000 where
  offsetDims := []
  collapsedSliceDims := [0]
  operandBatchingDims := []
  startIndicesBatchingDims := []
  startIndexMap := [0]
  indexVectorDim := 1
  sliceSizes := ![1]
  wf := gather_S30000_S240000x1_S240000_n_0_n_n_0_1_1_wf
def gather_S30000x512_S240000x1_S240000x512_1_0_n_n_0_1_1512 : GatherDims S30000x512 S240000x1 S240000x512 where
  offsetDims := [1]
  collapsedSliceDims := [0]
  operandBatchingDims := []
  startIndicesBatchingDims := []
  startIndexMap := [0]
  indexVectorDim := 1
  sliceSizes := ![1, 512]
  wf := gather_S30000x512_S240000x1_S240000x512_1_0_n_n_0_1_1512_wf
def scatter_S30000x512_S240000x1_S240000x512_1_0_0_1 : ScatterDims S30000x512 S240000x1 S240000x512 where
  updateWindowDims := [1]
  insertedWindowDims := [0]
  scatterDimsToOperandDims := [0]
  indexVectorDim := 1
  wf := scatter_S30000x512_S240000x1_S240000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v8) S1000x38.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S38x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S1x240000 : Shape := ⟨2, ![1, 240000]⟩
abbrev S240000 : Shape := ⟨1, ![240000]⟩
abbrev S240000x1 : Shape := ⟨2, ![240000, 1]⟩
abbrev S_ : Shape := ⟨0, ![]⟩
abbrev S30000x38 : Shape := ⟨2, ![30000, 38]⟩
abbrev S38x512 : Shape := ⟨2, ![38, 512]⟩
abbrev S30000x512 : Shape := ⟨2, ![30000, 512]⟩
abbrev S1x512 : Shape := ⟨2, ![1, 512]⟩
abbrev S30000 : Shape := ⟨1, ![30000]⟩
abbrev S240000x512 : Shape := ⟨2, ![240000, 512]⟩

abbrev nBuf : Space → Nat
  | .hbm => 164
  | .vmem => 0
  | .smem => 0
  | _ => 0

abbrev hbmTy0_0 (i : Nat) : BufTy := match i % 128 with
  | 0 => ⟨S30000x41, .f32⟩
  | 1 => ⟨S2x240000, .i32⟩
  | 2 => ⟨S240000x4, .f32⟩
  | 3 => ⟨S512x38, .f32⟩
  | 4 => ⟨S512, .f32⟩
  | 5 => ⟨S512x512, .f32⟩
  | 6 => ⟨S512x512, .f32⟩
  | 7 => ⟨S512x512, .f32⟩
  | 8 => ⟨S1x240000, .i32⟩
  | 9 => ⟨S240000, .i32⟩
  | 10 => ⟨S1x240000, .i32⟩
  | 11 => ⟨S240000, .i32⟩
  | 12 => ⟨S240000x1, .f32⟩
  | 13 => ⟨S240000, .f32⟩
  | 14 => ⟨S_, .f32⟩
  | 15 => ⟨S240000, .f32⟩
  | 16 => ⟨S240000, .f32⟩
  | 17 => ⟨S30000x38, .f32⟩
  | 18 => ⟨S38x512, .f32⟩
  | 19 => ⟨S30000x512, .f32⟩
  | 20 => ⟨S1x512, .f32⟩
  | 21 => ⟨S30000x512, .f32⟩
  | 22 => ⟨S30000x512, .f32⟩
  | 23 => ⟨S_, .f32⟩
  | 24 => ⟨S30000, .f32⟩
  | 25 => ⟨S240000x1, .i32⟩
  | 26 => ⟨S30000, .f32⟩
  | 27 => ⟨S_, .f32⟩
  | 28 => ⟨S30000, .f32⟩
  | 29 => ⟨S30000, .i1⟩
  | 30 => ⟨S_, .f32⟩
  | 31 => ⟨S_, .f32⟩
  | 32 => ⟨S30000, .f32⟩
  | 33 => ⟨S30000, .f32⟩
  | 34 => ⟨S_, .f32⟩
  | 35 => ⟨S30000, .f32⟩
  | 36 => ⟨S30000, .i1⟩
  | 37 => ⟨S30000, .f32⟩
  | 38 => ⟨S_, .f32⟩
  | 39 => ⟨S_, .f32⟩
  | 40 => ⟨S30000, .f32⟩
  | 41 => ⟨S30000, .f32⟩
  | 42 => ⟨S_, .i32⟩
  | 43 => ⟨S240000, .i32⟩
  | 44 => ⟨S240000, .i1⟩
  | 45 => ⟨S_, .i32⟩
  | 46 => ⟨S240000, .i32⟩
  | 47 => ⟨S240000, .i32⟩
  | 48 => ⟨S240000, .i32⟩
  | 49 => ⟨S240000x1, .i32⟩
  | 50 => ⟨S240000, .f32⟩
  | 51 => ⟨S240000, .f32⟩
  | 52 => ⟨S_, .i32⟩
  | 53 => ⟨S240000, .i32⟩
  | 54 => ⟨S240000, .i1⟩
  | 55 => ⟨S_, .i32⟩
  | 56 => ⟨S240000, .i32⟩
  | 57 => ⟨S240000, .i32⟩
  | 58 => ⟨S240000, .i32⟩
  | 59 => ⟨S240000x1, .i32⟩
  | 60 => ⟨S240000, .f32⟩
  | 61 => ⟨S240000, .f32⟩
  | 62 => ⟨S_, .i32⟩
  | 63 => ⟨S240000, .i32⟩
  | 64 => ⟨S240000, .i1⟩
  | 65 => ⟨S_, .i32⟩
  | 66 => ⟨S240000, .i32⟩
  | 67 => ⟨S240000, .i32⟩
  | 68 => ⟨S240000, .i32⟩
  | 69 => ⟨S240000x1, .i32⟩
  | 70 => ⟨S240000x512, .f32⟩
  | 71 => ⟨S240000x1, .f32⟩
  | 72 => ⟨S240000x512, .f32⟩
  | 73 => ⟨S240000x512, .f32⟩
  | 74 => ⟨S_, .f32⟩
  | 75 => ⟨S30000x512, .f32⟩
  | 76 => ⟨S240000x1, .i32⟩
  | 77 => ⟨S30000x512, .f32⟩
  | 78 => ⟨S_, .f32⟩
  | 79 => ⟨S30000x512, .f32⟩
  | 80 => ⟨S30000x512, .f32⟩
  | 81 => ⟨S_, .f32⟩
  | 82 => ⟨S30000x512, .f32⟩
  | 83 => ⟨S30000x512, .f32⟩
  | 84 => ⟨S30000x512, .f32⟩
  | 85 => ⟨S_, .f32⟩
  | 86 => ⟨S30000x512, .f32⟩
  | 87 => ⟨S30000x512, .f32⟩
  | 88 => ⟨S30000x512, .f32⟩
  | 89 => ⟨S_, .f32⟩
  | 90 => ⟨S30000x512, .f32⟩
  | 91 => ⟨S30000x512, .f32⟩
  | 92 => ⟨S30000x512, .f32⟩
  | 93 => ⟨S_, .f32⟩
  | 94 => ⟨S30000x512, .f32⟩
  | 95 => ⟨S30000x512, .f32⟩
  | 96 => ⟨S_, .i32⟩
  | 97 => ⟨S240000, .i32⟩
  | 98 => ⟨S240000, .i1⟩
  | 99 => ⟨S_, .i32⟩
  | 100 => ⟨S240000, .i32⟩
  | 101 => ⟨S240000, .i32⟩
  | 102 => ⟨S240000, .i32⟩
  | 103 => ⟨S240000x1, .i32⟩
  | 104 => ⟨S240000x512, .f32⟩
  | 105 => ⟨S240000x1, .f32⟩
  | 106 => ⟨S240000x512, .f32⟩
  | 107 => ⟨S240000x512, .f32⟩
  | 108 => ⟨S_, .f32⟩
  | 109 => ⟨S30000x512, .f32⟩
  | 110 => ⟨S240000x1, .i32⟩
  | 111 => ⟨S30000x512, .f32⟩
  | 112 => ⟨S_, .f32⟩
  | 113 => ⟨S30000x512, .f32⟩
  | 114 => ⟨S30000x512, .f32⟩
  | 115 => ⟨S_, .f32⟩
  | 116 => ⟨S30000x512, .f32⟩
  | 117 => ⟨S30000x512, .f32⟩
  | 118 => ⟨S30000x512, .f32⟩
  | 119 => ⟨S_, .f32⟩
  | 120 => ⟨S30000x512, .f32⟩
  | 121 => ⟨S30000x512, .f32⟩
  | 122 => ⟨S30000x512, .f32⟩
  | 123 => ⟨S_, .f32⟩
  | 124 => ⟨S30000x512, .f32⟩
  | 125 => ⟨S30000x512, .f32⟩
  | 126 => ⟨S30000x512, .f32⟩
  | 127 => ⟨S_, .f32⟩
  | _ => ⟨S30000x41, .f32⟩

abbrev hbmTy0_1 (i : Nat) : BufTy := match i % 128 with
  | 0 => ⟨S30000x512, .f32⟩
  | 1 => ⟨S30000x512, .f32⟩
  | 2 => ⟨S_, .i32⟩
  | 3 => ⟨S240000, .i32⟩
  | 4 => ⟨S240000, .i1⟩
  | 5 => ⟨S_, .i32⟩
  | 6 => ⟨S240000, .i32⟩
  | 7 => ⟨S240000, .i32⟩
  | 8 => ⟨S240000, .i32⟩
  | 9 => ⟨S240000x1, .i32⟩
  | 10 => ⟨S240000x512, .f32⟩
  | 11 => ⟨S240000x1, .f32⟩
  | 12 => ⟨S240000x512, .f32⟩
  | 13 => ⟨S240000x512, .f32⟩
  | 14 => ⟨S_, .f32⟩
  | 15 => ⟨S30000x512, .f32⟩
  | 16 => ⟨S240000x1, .i32⟩
  | 17 => ⟨S30000x512, .f32⟩
  | 18 => ⟨S_, .f32⟩
  | 19 => ⟨S30000x512, .f32⟩
  | 20 => ⟨S30000x512, .f32⟩
  | 21 => ⟨S_, .f32⟩
  | 22 => ⟨S30000x512, .f32⟩
  | 23 => ⟨S30000x512, .f32⟩
  | 24 => ⟨S30000x512, .f32⟩
  | 25 => ⟨S_, .f32⟩
  | 26 => ⟨S30000x512, .f32⟩
  | 27 => ⟨S30000x512, .f32⟩
  | 28 => ⟨S30000x512, .f32⟩
  | 29 => ⟨S_, .f32⟩
  | 30 => ⟨S30000x512, .f32⟩
  | 31 => ⟨S30000x512, .f32⟩
  | 32 => ⟨S30000x512, .f32⟩
  | 33 => ⟨S_, .f32⟩
  | 34 => ⟨S30000x512, .f32⟩
  | 35 => ⟨S30000x512, .f32⟩
  | _ => ⟨S30000x41, .f32⟩

abbrev hbmTy (i : Nat) : BufTy := match i / 128 with
  | 0 => hbmTy0_0 i
  | 1 => hbmTy0_1 i
  | _ => ⟨S30000x41, .f32⟩

abbrev bufTy : (tb : Table) → Fin (tcTables nBuf tb) → BufTy
  | .hbm, ⟨i, _⟩ => hbmTy i
  | _, _ => ⟨S30000x41, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_cst : Ref sig .tc := ⟨.hbm, 93, rfl⟩
abbrev main_call2_v0 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call3_cst : Ref sig .tc := ⟨.hbm, 127, rfl⟩
abbrev main_call3_v0 : Ref sig .tc := ⟨.hbm, 128, rfl⟩
abbrev main_v89 : Ref sig .tc := ⟨.hbm, 129, rfl⟩
abbrev main_c_22 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_25 : Ref sig .tc := ⟨.hbm, 146, rfl⟩
abbrev main_v103 : Ref sig .tc := ⟨.hbm, 147, rfl⟩
abbrev main_v104 : Ref sig .tc := ⟨.hbm, 148, rfl⟩
abbrev main_cst_26 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_27 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_28 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_call4_cst : Ref sig .tc := ⟨.hbm, 161, rfl⟩
abbrev main_call4_v0 : Ref sig .tc := ⟨.hbm, 162, rfl⟩
abbrev main_v114 : Ref sig .tc := ⟨.hbm, 163, rfl⟩

abbrev nD : Nat := 1
abbrev τ : Topo := Topo.v7x

variable {F : FTy → Type} [FloatOps F]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  slices_S240000x4_S240000x1_0_3 : S240000x4.Slices ![0, 3] S240000x1
  shapeCasts_S240000x1_S240000 : S240000x1.ShapeCasts S240000
  bcast_S_S240000 : S_.BroadcastsInDim S240000 (![] : Fin 0 → Fin S240000.rank)
  slices_S30000x41_S30000x38_0_0 : S30000x41.Slices ![0, 0] S30000x38
  transposes_S512x38_S38x512_1_0 : S512x38.Transposes [1, 0] S38x512
  bcast_S512_S1x512_1 : S512.BroadcastsInDim S1x512 (![1] : Fin 1 → Fin S1x512.rank)
  bcast_S1x512_S30000x512_0_1 : S1x512.BroadcastsInDim S30000x512 (![0, 1] : Fin 2 → Fin S30000x512.rank)
  bcast_S_S30000 : S_.BroadcastsInDim S30000 (![] : Fin 0 → Fin S30000.rank)
  bcast_S240000_S240000x1_0 : S240000.BroadcastsInDim S240000x1 (![0] : Fin 1 → Fin S240000x1.rank)
  bcast_S240000x1_S240000x512_0_1 : S240000x1.BroadcastsInDim S240000x512 (![0, 1] : Fin 2 → Fin S240000x512.rank)
  bcast_S_S30000x512 : S_.BroadcastsInDim S30000x512 (![] : Fin 0 → Fin S30000x512.rank)
  dot_S30000x38_S38x512_S30000x512_1_0_0_1_n_n_wf : DotDims.WF S30000x38 S38x512 S30000x512 [1] [0] [0] [1] [] []
  scatter_S30000_S240000x1_S240000_n_0_0_1_wf : ScatterDims.WF S30000 S240000x1 S240000 [] [0] [0] 1
  gather_S30000_S240000x1_S240000_n_0_n_n_0_1_1_wf : GatherDims.WF S30000 S240000x1 S240000 [] [0] [] [0] [] 1 ![1]
  gather_S30000x512_S240000x1_S240000x512_1_0_n_n_0_1_1512_wf : GatherDims.WF S30000x512 S240000x1 S240000x512 [1] [0] [] [0] [] 1 ![1, 512]
  scatter_S30000x512_S240000x1_S240000x512_1_0_0_1_wf : ScatterDims.WF S30000x512 S240000x1 S240000x512 [1] [0] [0] 1
  dot_S30000x512_S512x512_S30000x512_1_0_0_1_n_n_wf : DotDims.WF S30000x512 S512x512 S30000x512 [1] [0] [0] [1] [] []

variable [Facts₀]

def dot_S30000x38_S38x512_S30000x512_1_0_0_1_n_n : DotDims S30000x38 S38x512 S30000x512 where
  lhsContracting := [1]
  rhsContracting := [0]
  lhsNonContracting := [0]
  rhsNonContracting := [1]
  lhsBatch := []
  rhsBatch := []
  wf := dot_S30000x38_S38x512_S30000x512_1_0_0_1_n_n_wf
def scatter_S30000_S240000x1_S240000_n_0_0_1 : ScatterDims S30000 S240000x1 S240000 where
  updateWindowDims := []
  insertedWindowDims := [0]
  scatterDimsToOperandDims := [0]
  indexVectorDim := 1
  wf := scatter_S30000_S240000x1_S240000_n_0_0_1_wf
def gather_S30000_S240000x1_S240000_n_0_n_n_0_1_1 : GatherDims S30000 S240000x1 S240000 where
  offsetDims := []
  collapsedSliceDims := [0]
  operandBatchingDims := []
  startIndicesBatchingDims := []
  startIndexMap := [0]
  indexVectorDim := 1
  sliceSizes := ![1]
  wf := gather_S30000_S240000x1_S240000_n_0_n_n_0_1_1_wf
def gather_S30000x512_S240000x1_S240000x512_1_0_n_n_0_1_1512 : GatherDims S30000x512 S240000x1 S240000x512 where
  offsetDims := [1]
  collapsedSliceDims := [0]
  operandBatchingDims := []
  startIndicesBatchingDims := []
  startIndexMap := [0]
  indexVectorDim := 1
  sliceSizes := ![1, 512]
  wf := gather_S30000x512_S240000x1_S240000x512_1_0_n_n_0_1_1512_wf
def scatter_S30000x512_S240000x1_S240000x512_1_0_0_1 : ScatterDims S30000x512 S240000x1 S240000x512 where
  updateWindowDims := [1]
  insertedWindowDims := [0]
  scatterDimsToOperandDims := [0]
  indexVectorDim := 1
  wf := scatter_S30000x512_S240000x1_S240000x512_1_0_0_1_wf
def dot_S30000x512_S512x512_S30000x512_1_0_0_1_n_n : DotDims S30000x512 S512x512 S30000x512 where
  lhsContracting := [1]
  rhsContracting := [0]
  lhsNonContracting := [0]
  rhsNonContracting := [1]
  lhsBatch := []
  rhsBatch := []
  wf := dot_S30000x512_S512x512_S30000x512_1_0_0_1_n_n_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibRowAffine.lean ====
/-
  A linear layer whose bias is kept as a one-row matrix, read as one whole-array function (a general lemma: nothing here
  depends on a program).

  For x : [A, K], w : [K, C] and a row r : [1, C] the map is (x·w + r)[a, c] = Σ_{k<K} x[a, k]·w[k, c] + r[0, c].
  The matrix unit computes it with both operands narrowed to bf16 (the identity on the extended reals), the product taken
  into a zero accumulator, and the one row broadcast down the A rows: the same function of (x, w, r), entry by entry.
-/
import Idealize.ShloMosaic.Lib.ValueIdx
import Idealize.ShloMosaic.Lib.Pipeline.Value
import Idealize.ShloMosaic.PureOps.Ideal.Laws
import proofs.«141229_j30382598652516_1_alg».proof.Proof.LibMatmul

noncomputable section

namespace Cert.Lib.RowAffine

open Idealize.ShloMosaic Idealize.ShloMosaic.ValueIdx

variable {A K C : Nat}

/-- (x·w + r) at every entry: row a of x against column c of w, plus the row's entry of column c. -/
def rowAffine (x : (⟨2, ![A, K]⟩ : Shape).Idx → EReal) (w : (⟨2, ![K, C]⟩ : Shape).Idx → EReal)
    (r : (⟨2, ![1, C]⟩ : Shape).Idx → EReal) : (⟨2, ![A, C]⟩ : Shape).Idx → EReal :=
  fun i => (∑ k : Fin K, x (ix2 (i 0 : Fin A) k) * w (ix2 k (i 1 : Fin C))) + r (ix2 (0 : Fin 1) (i 1 : Fin C))

theorem rowAffine_apply (x : (⟨2, ![A, K]⟩ : Shape).Idx → EReal) (w : (⟨2, ![K, C]⟩ : Shape).Idx → EReal)
    (r : (⟨2, ![1, C]⟩ : Shape).Idx → EReal) (a : Fin A) (c : Fin C) :
    rowAffine x w r (ix2 a c) = (∑ k : Fin K, x (ix2 a k) * w (ix2 k c)) + r (ix2 (0 : Fin 1) c) := rfl

/-- A one-row matrix broadcast down A rows holds, at (p, q), the row's entry q. -/
theorem rowDown_apply {α : Type} (r : (⟨2, ![1, C]⟩ : Shape).Idx → α)
    (h2 : (⟨2, ![1, C]⟩ : Shape).Broadcasts ⟨2, ![A, C]⟩) (p : Fin A) (q : Fin C) :
    broadcastTo ⟨2, ![A, C]⟩ r h2 (ix2 p q) = r (ix2 (0 : Fin 1) q) := by
  refine broadcastTo_apply r h2 (ix2 p q) (ix2 (0 : Fin 1) q) ?_
  intro a
  match a with
  | ⟨0, _⟩ => simp
  | ⟨1, _⟩ =>
    show q.val = if C = 1 then 0 else q.val
    split
    · have := q.isLt; omega
    · rfl

/-- Narrowed operands into a zero accumulator, plus the one row broadcast down: the map above. -/
theorem mxu_rowAffine (x : FVec Ideal ⟨2, ![A, K]⟩ .f32) (w : FVec Ideal ⟨2, ![K, C]⟩ .f32) (r : FVec Ideal ⟨2, ![1, C]⟩ .f32)
    (hx : (⟨2, ![A, K]⟩ : Shape).ShapeCasts ⟨2, ![A, K]⟩) (hlt : FTy.bf16.bits < FTy.f32.bits)
    (h1 : (⟨2, ![1, C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 w hlt) (constant ⟨2, ![A, C]⟩ .f32 0x00000000#32))
      (broadcastTo ⟨2, ![A, C]⟩ (shapeCast ⟨2, ![1, C]⟩ r h1) h2)
    = rowAffine x w r := by
  funext i
  obtain ⟨a, c, rfl⟩ : ∃ (a : Fin A) (c : Fin C), i = ix2 a c := ⟨i 0, i 1, eq_ix2 i⟩
  rw [addf_apply, rowAffine_apply]
  show FloatOps.matmul (DotDims.plain A K C) prec _ _ (constant ⟨2, ![A, C]⟩ .f32 0x00000000#32) (ix2 a c) + _ = _
  rw [Cert.Lib.Matmul.matmul_zero_apply, rowDown_apply]
  simp only [truncf_apply, shapeCast_self]

end Cert.Lib.RowAffine

end
-- ==== Proof.Spec.lean ====
/-
  The network as whole-array functions (nothing here depends on a program).

  One layer's closing step: for aggregated messages agg, the first layer's output h0 (both [A, 512]) and a weight
  matrix wc [512, 512], with out = 0.8·agg + 0.2·h0 entry by entry (the two scalars kept as their binary words),
  the step is max(0·out + 1·(out·wc), 0): entry (a, c) depends on row a of agg and h0 and on column c of wc.
  The whole network is three such steps, each over the graph aggregation of the previous activations, all sharing h0.
-/
import Idealize.ShloMosaic.Lib.ValueIdx
import Idealize.ShloMosaic.PureOps.Ideal.Laws
import proofs.«141229_j30382598652516_1_alg».proof.Proof.LibMatmul
import proofs.«141229_j30382598652516_1_alg».proof.Proof.LibRowAffine

noncomputable section

namespace Cert.Gcn

open Idealize.ShloMosaic Idealize.ShloMosaic.ValueIdx

/-- The residual mix of one aggregated entry with the first layer's entry: 0.8·a + 0.2·h, the scalars as words. -/
def mix (a h : EReal) : EReal :=
  (Ideal.ofBits .f32 0x3F4CCCCD#32 : EReal) * a + (Ideal.ofBits .f32 0x3E4CCCCD#32 : EReal) * h

/-- One layer's closing step as a whole-array function of (agg, h0, wc), any row count A. -/
def combine {A : Nat} (agg h0 : (⟨2, ![A, 512]⟩ : Shape).Idx → EReal) (wc : (⟨2, ![512, 512]⟩ : Shape).Idx → EReal) :
    (⟨2, ![A, 512]⟩ : Shape).Idx → EReal :=
  fun i => max
    ((Ideal.ofBits .f32 0x00000000#32 : EReal) * mix (agg (ix2 (i 0 : Fin A) (i 1 : Fin 512))) (h0 (ix2 (i 0 : Fin A) (i 1 : Fin 512)))
      + (Ideal.ofBits .f32 0x3F800000#32 : EReal)
          * ∑ k : Fin 512, mix (agg (ix2 (i 0 : Fin A) k)) (h0 (ix2 (i 0 : Fin A) k)) * wc (ix2 k (i 1 : Fin 512)))
    (Ideal.ofBits .f32 0x00000000#32 : EReal)

theorem combine_apply {A : Nat} (agg h0 : (⟨2, ![A, 512]⟩ : Shape).Idx → EReal)
    (wc : (⟨2, ![512, 512]⟩ : Shape).Idx → EReal) (a : Fin A) (c : Fin 512) :
    combine agg h0 wc (ix2 a c) = max
      ((Ideal.ofBits .f32 0x00000000#32 : EReal) * mix (agg (ix2 a c)) (h0 (ix2 a c))
        + (Ideal.ofBits .f32 0x3F800000#32 : EReal) * ∑ k : Fin 512, mix (agg (ix2 a k)) (h0 (ix2 a k)) * wc (ix2 k c))
      (Ideal.ofBits .f32 0x00000000#32 : EReal) := rfl

/-- The activations: [30000, 512]. -/
abbrev Mat := (⟨2, ![30000, 512]⟩ : Shape).Idx → EReal

/-- Three layers: each aggregates the previous activations over the graph (Agg), then closes against h0. -/
def net (Agg : Mat → Mat) (h0 : Mat) (w5 w6 w7 : (⟨2, ![512, 512]⟩ : Shape).Idx → EReal) : Mat :=
  combine (Agg (combine (Agg (combine (Agg h0) h0 w5)) h0 w6)) h0 w7

end Cert.Gcn

end
-- ==== Proof.KFold.lean ====
/-
  The kernel program's result, read through its twelve segments.

  Between the four kernel regions the program computes on the host exactly what the reference computes: the edge
  weights w = attr[:, 3] / 15.2863302, the source and target node of every edge, the symmetric normalisation
  norm = dinv[row]·w·dinv[col] with dinv = 1/sqrt(deg) where the weighted in-degree deg is positive and 0 elsewhere, and,
  for activations h, the graph aggregation agg(h) = scatter-add over the target nodes of h[row]·norm. Each segment
  boundary's contents are followed from the launch memory: a host stretch computes its results from what it finds and
  leaves every other buffer alone; a region leaves its output array at the whole-array function of its input arrays
  (the four facts this module takes as hypotheses) and every other buffer alone. At the last boundary the result array
  holds the three-layer network of the argument arrays.
-/
import proofs.«141229_j30382598652516_1_alg».proof.Proof.Gen.KernelIdeal.Frame
import proofs.«141229_j30382598652516_1_alg».proof.Proof.Spec
import Idealize.ShloMosaic.Lib.StableHlo.Run

set_option maxRecDepth 16384

noncomputable section

namespace Cert.KernelIdeal.KFold

open Cert.KernelIdeal Cert.KernelIdeal.Gen Idealize.ShloMosaic Idealize.ShloMosaic.TcCoe Idealize.ShloMosaic.ValueIdx
open Idealize.ShloMosaic.StableHlo Idealize.SL.Sem
open Idealize.ShloMosaic.Pipeline (Dat)

/-! ## The host computations as functions -/

/-- The source node of every edge: row 0 of the edge list. -/
def rowsOf (x1 : (⟨S2x240000, .i32⟩ : BufTy).Contents (Elt Ideal)) : (⟨S240000, .i32⟩ : BufTy).Contents (Elt Ideal) :=
  shapeCast S240000 (extractStridedSlice S1x240000 ![0, 0] x1 slices_S2x240000_S1x240000_0_0) shapeCasts_S1x240000_S240000
/-- The target node of every edge: row 1 of the edge list. -/
def colsOf (x1 : (⟨S2x240000, .i32⟩ : BufTy).Contents (Elt Ideal)) : (⟨S240000, .i32⟩ : BufTy).Contents (Elt Ideal) :=
  shapeCast S240000 (extractStridedSlice S1x240000 ![1, 0] x1 slices_S2x240000_S1x240000_1_0) shapeCasts_S1x240000_S240000
/-- The edge weights: the last attribute over the fixed scale. -/
def wgtOf (x2 : FVec Ideal S240000x4 .f32) : FVec Ideal S240000 .f32 :=
  Host.divf (F := Ideal) (shapeCast S240000 (extractStridedSlice S240000x1 ![0, 3] x2 slices_S240000x4_S240000x1_0_3) shapeCasts_S240000x1_S240000)
    (broadcastInDim S240000 ![] bcast_S_S240000 (constant (F := Ideal) S_ .f32 1098159311#32))
/-- The node features used: the first 38 columns. -/
def featOf (x0 : FVec Ideal S30000x41 .f32) : FVec Ideal S30000x38 .f32 :=
  extractStridedSlice S30000x38 ![0, 0] x0 slices_S30000x41_S30000x38_0_0
/-- The first layer's weights, transposed. -/
def w1tOf (x3 : FVec Ideal S512x38 .f32) : FVec Ideal S38x512 .f32 :=
  transpose S38x512 [1, 0] x3 transposes_S512x38_S38x512_1_0
/-- The first layer's bias as one row. -/
def rowOf (x4 : FVec Ideal S512 .f32) : FVec Ideal S1x512 .f32 :=
  shapeCast S1x512 x4 shapeCasts_S512_S1x512

/-- A negative node index counts from the end: it is wrapped once around the 30000 nodes. -/
def wrapIdx (ix : (⟨S240000, .i32⟩ : BufTy).Contents (Elt Ideal)) : (⟨S240000, .i32⟩ : BufTy).Contents (Elt Ideal) :=
  select (cmpi .slt ix (broadcastInDim S240000 ![] bcast_S_S240000 (constantI S_ 32 0#32)))
    (addi ix (broadcastInDim S240000 ![] bcast_S_S240000 (constantI S_ 32 30000#32))) ix

/-- The weighted in-degree of every node. -/
def degOf (cols : (⟨S240000, .i32⟩ : BufTy).Contents (Elt Ideal)) (wgt : FVec Ideal S240000 .f32) : FVec Ideal S30000 .f32 :=
  Host.scatterAdd (F := Ideal) scatter_S30000_S240000x1_S240000_n_0_0_1
    (broadcastInDim S30000 ![] bcast_S_S30000 (constant (F := Ideal) S_ .f32 0#32))
    (broadcastInDim S240000x1 ![0] bcast_S240000_S240000x1_0 cols) wgt

/-- 1/sqrt(deg) where deg is positive, 0 elsewhere. -/
def dinvOf (cols : (⟨S240000, .i32⟩ : BufTy).Contents (Elt Ideal)) (wgt : FVec Ideal S240000 .f32) : FVec Ideal S30000 .f32 :=
  select (cmpf .ogt (degOf cols wgt) (broadcastInDim S30000 ![] bcast_S_S30000 (constant (F := Ideal) S_ .f32 0#32)))
    (Host.rsqrt (F := Ideal)
      (select (cmpf .ogt (degOf cols wgt) (broadcastInDim S30000 ![] bcast_S_S30000 (constant (F := Ideal) S_ .f32 0#32)))
        (degOf cols wgt) (broadcastInDim S30000 ![] bcast_S_S30000 (constant (F := Ideal) S_ .f32 1065353216#32))))
    (broadcastInDim S30000 ![] bcast_S_S30000 (constant (F := Ideal) S_ .f32 0#32))

/-- The symmetric normalisation of every edge: dinv[row]·w·dinv[col]. -/
def normOf (rows cols : (⟨S240000, .i32⟩ : BufTy).Contents (Elt Ideal)) (wgt : FVec Ideal S240000 .f32) : FVec Ideal S240000 .f32 :=
  mulf (F := Ideal)
    (mulf (F := Ideal)
      (Host.gather gather_S30000_S240000x1_S240000_n_0_n_n_0_1_1 (dinvOf cols wgt)
        (broadcastInDim S240000x1 ![0] bcast_S240000_S240000x1_0 (wrapIdx rows)))
      wgt)
    (Host.gather gather_S30000_S240000x1_S240000_n_0_n_n_0_1_1 (dinvOf cols wgt)
      (broadcastInDim S240000x1 ![0] bcast_S240000_S240000x1_0 (wrapIdx cols)))

/-- The graph aggregation of activations h: every edge carries row[edge] of h times its norm to its target node. -/
def aggOf (rows cols : (⟨S240000, .i32⟩ : BufTy).Contents (Elt Ideal)) (nrm : FVec Ideal S240000 .f32) (h : FVec Ideal S30000x512 .f32) : FVec Ideal S30000x512 .f32 :=
  Host.scatterAdd (F := Ideal) scatter_S30000x512_S240000x1_S240000x512_1_0_0_1
    (broadcastInDim S30000x512 ![] bcast_S_S30000x512 (constant (F := Ideal) S_ .f32 0#32))
    (broadcastInDim S240000x1 ![0] bcast_S240000_S240000x1_0 cols)
    (mulf (F := Ideal)
      (Host.gather gather_S30000x512_S240000x1_S240000x512_1_0_n_n_0_1_1512 h
        (broadcastInDim S240000x1 ![0] bcast_S240000_S240000x1_0 (wrapIdx rows)))
      (broadcastInDim S240000x512 ![0, 1] bcast_S240000x1_S240000x512_0_1
        (broadcastInDim S240000x1 ![0] bcast_S240000_S240000x1_0 nrm)))

/-! ## The host stretches, from any contents -/

section Stretches

variable (Wv : Valuation τ sig (Elt Ideal))

/-- The five stretches between the first and the second region, composed. -/
abbrev mid : Valuation τ sig (Elt Ideal) :=
  StableHlo.after hostOps1_4 (StableHlo.after hostOps1_3 (StableHlo.after hostOps1_2 (StableHlo.after hostOps1_1 (StableHlo.after hostOps1 Wv))))

theorem s0_v1 : StableHlo.after hostOps0 Wv (Proc.devRef .tc main_v1) = rowsOf (Wv (Proc.devRef .tc main_arg1)) := by
  after_results_simp <;> rfl
theorem s0_v3 : StableHlo.after hostOps0 Wv (Proc.devRef .tc main_v3) = colsOf (Wv (Proc.devRef .tc main_arg1)) := by
  after_results_simp <;> rfl
theorem s0_v7 : StableHlo.after hostOps0 Wv (Proc.devRef .tc main_v7) = wgtOf (Wv (Proc.devRef .tc main_arg2)) := by
  after_results_simp <;> rfl
theorem s0_v8 : StableHlo.after hostOps0 Wv (Proc.devRef .tc main_v8) = featOf (Wv (Proc.devRef .tc main_arg0)) := by
  after_results_simp <;> rfl
theorem s0_v9 : StableHlo.after hostOps0 Wv (Proc.devRef .tc main_v9) = w1tOf (Wv (Proc.devRef .tc main_arg3)) := by
  after_results_simp <;> rfl
theorem s0_v10 : StableHlo.after hostOps0 Wv (Proc.devRef .tc main_v10) = rowOf (Wv (Proc.devRef .tc main_arg4)) := by
  after_results_simp <;> rfl
theorem s0_arg5 : StableHlo.after hostOps0 Wv (Proc.devRef .tc main_arg5) = Wv (Proc.devRef .tc main_arg5) := by
  after_results_simp <;> rfl
theorem s0_arg6 : StableHlo.after hostOps0 Wv (Proc.devRef .tc main_arg6) = Wv (Proc.devRef .tc main_arg6) := by
  after_results_simp <;> rfl
theorem s0_arg7 : StableHlo.after hostOps0 Wv (Proc.devRef .tc main_arg7) = Wv (Proc.devRef .tc main_arg7) := by
  after_results_simp <;> rfl
set_option maxHeartbeats 4000000 in
theorem mid_v37 : mid Wv (Proc.devRef .tc main_v37) = normOf (Wv (Proc.devRef .tc main_v1)) (Wv (Proc.devRef .tc main_v3)) (Wv (Proc.devRef .tc main_v7)) := by
  after_results_simp
  simp only [TRef.toBuf, TRef.ofBuf, cast_eq, id_eq]
  rfl
set_option maxHeartbeats 8000000 in
theorem mid_v50 : mid Wv (Proc.devRef .tc main_v50) = aggOf (Wv (Proc.devRef .tc main_v1)) (Wv (Proc.devRef .tc main_v3)) (normOf (Wv (Proc.devRef .tc main_v1)) (Wv (Proc.devRef .tc main_v3)) (Wv (Proc.devRef .tc main_v7))) (Wv (Proc.devRef .tc main_v11)) := by
  after_results_simp
  simp only [TRef.toBuf, TRef.ofBuf, cast_eq, id_eq]
  rfl
set_option maxHeartbeats 2000000 in
theorem mid_v1 : mid Wv (Proc.devRef .tc main_v1) = Wv (Proc.devRef .tc main_v1) := by
  after_results_simp <;> rfl
set_option maxHeartbeats 2000000 in
theorem mid_v3 : mid Wv (Proc.devRef .tc main_v3) = Wv (Proc.devRef .tc main_v3) := by
  after_results_simp <;> rfl
set_option maxHeartbeats 2000000 in
theorem mid_v11 : mid Wv (Proc.devRef .tc main_v11) = Wv (Proc.devRef .tc main_v11) := by
  after_results_simp <;> rfl
set_option maxHeartbeats 2000000 in
theorem mid_arg5 : mid Wv (Proc.devRef .tc main_arg5) = Wv (Proc.devRef .tc main_arg5) := by
  after_results_simp <;> rfl
set_option maxHeartbeats 2000000 in
theorem mid_arg6 : mid Wv (Proc.devRef .tc main_arg6) = Wv (Proc.devRef .tc main_arg6) := by
  after_results_simp <;> rfl
set_option maxHeartbeats 2000000 in
theorem mid_arg7 : mid Wv (Proc.devRef .tc main_arg7) = Wv (Proc.devRef .tc main_arg7) := by
  after_results_simp <;> rfl
set_option maxHeartbeats 1000000 in
theorem s2_v64 : StableHlo.after hostOps2 Wv (Proc.devRef .tc main_v64) = aggOf (Wv (Proc.devRef .tc main_v1)) (Wv (Proc.devRef .tc main_v3)) (Wv (Proc.devRef .tc main_v37)) (Wv (Proc.devRef .tc main_v51)) := by
  after_results_simp <;> rfl
theorem s2_v1 : StableHlo.after hostOps2 Wv (Proc.devRef .tc main_v1) = Wv (Proc.devRef .tc main_v1) := by
  after_results_simp <;> rfl
theorem s2_v3 : StableHlo.after hostOps2 Wv (Proc.devRef .tc main_v3) = Wv (Proc.devRef .tc main_v3) := by
  after_results_simp <;> rfl
theorem s2_v37 : StableHlo.after hostOps2 Wv (Proc.devRef .tc main_v37) = Wv (Proc.devRef .tc main_v37) := by
  after_results_simp <;> rfl
theorem s2_v11 : StableHlo.after hostOps2 Wv (Proc.devRef .tc main_v11) = Wv (Proc.devRef .tc main_v11) := by
  after_results_simp <;> rfl
theorem s2_arg6 : StableHlo.after hostOps2 Wv (Proc.devRef .tc main_arg6) = Wv (Proc.devRef .tc main_arg6) := by
  after_results_simp <;> rfl
theorem s2_arg7 : StableHlo.after hostOps2 Wv (Proc.devRef .tc main_arg7) = Wv (Proc.devRef .tc main_arg7) := by
  after_results_simp <;> rfl
set_option maxHeartbeats 1000000 in
theorem s3_v78 : StableHlo.after hostOps3 Wv (Proc.devRef .tc main_v78) = aggOf (Wv (Proc.devRef .tc main_v1)) (Wv (Proc.devRef .tc main_v3)) (Wv (Proc.devRef .tc main_v37)) (Wv (Proc.devRef .tc main_v65)) := by
  after_results_simp <;> rfl
theorem s3_v11 : StableHlo.after hostOps3 Wv (Proc.devRef .tc main_v11) = Wv (Proc.devRef .tc main_v11) := by
  after_results_simp <;> rfl
theorem s3_arg7 : StableHlo.after hostOps3 Wv (Proc.devRef .tc main_arg7) = Wv (Proc.devRef .tc main_arg7) := by
  after_results_simp <;> rfl

end Stretches

/-! ## The contents at every segment boundary -/

section Chain

variable (m : (ℓ : Loc nD τ sig) → Buf (Elt Ideal) ℓ) (ρ : Dev nD → PrngReg)

/-- The contents a region is entered with, as its proof data take them. -/
abbrev Entry := (c : Dev nD) → (b : Ref sig .tc) → Buf (Elt Ideal) ((c : Thread nD τ).loc b)

/-- The quantities the run computes once, from the launch memory. -/
abbrev rowsAt (c : Dev nD) : (⟨S240000, .i32⟩ : BufTy).Contents (Elt Ideal) := rowsOf (m ((c : Thread nD τ).loc main_arg1))
abbrev colsAt (c : Dev nD) : (⟨S240000, .i32⟩ : BufTy).Contents (Elt Ideal) := colsOf (m ((c : Thread nD τ).loc main_arg1))
abbrev wgtAt (c : Dev nD) : FVec Ideal S240000 .f32 := wgtOf (m ((c : Thread nD τ).loc main_arg2))
abbrev normAt (c : Dev nD) : FVec Ideal S240000 .f32 := normOf (rowsAt m c) (colsAt m c) (wgtAt m c)
/-- The first layer: feat·W1ᵀ + b1. -/
abbrev h0At (c : Dev nD) : FVec Ideal S30000x512 .f32 :=
  Cert.Lib.RowAffine.rowAffine (A := 30000) (K := 38) (C := 512) (featOf (m ((c : Thread nD τ).loc main_arg0))) (w1tOf (m ((c : Thread nD τ).loc main_arg3))) (rowOf (m ((c : Thread nD τ).loc main_arg4)))
abbrev aggAt (c : Dev nD) (h : FVec Ideal S30000x512 .f32) : FVec Ideal S30000x512 .f32 :=
  aggOf (rowsAt m c) (colsAt m c) (normAt m c) h
abbrev h1At (c : Dev nD) : FVec Ideal S30000x512 .f32 := Cert.Gcn.combine (A := 30000) (aggAt m c (h0At m c)) (h0At m c) (m ((c : Thread nD τ).loc main_arg5))
abbrev h2At (c : Dev nD) : FVec Ideal S30000x512 .f32 := Cert.Gcn.combine (A := 30000) (aggAt m c (h1At m c)) (h0At m c) (m ((c : Thread nD τ).loc main_arg6))

/-! ### After the first host stretch -/
theorem w1_v1 (c : Dev nD) : W1 m ρ c (Proc.devRef .tc main_v1) = rowsAt m c :=
  s0_v1 (W0 m ρ c)
theorem w1_v3 (c : Dev nD) : W1 m ρ c (Proc.devRef .tc main_v3) = colsAt m c :=
  s0_v3 (W0 m ρ c)
theorem w1_v7 (c : Dev nD) : W1 m ρ c (Proc.devRef .tc main_v7) = wgtAt m c :=
  s0_v7 (W0 m ρ c)
theorem w1_v8 (c : Dev nD) : W1 m ρ c (Proc.devRef .tc main_v8) = featOf (m ((c : Thread nD τ).loc main_arg0)) :=
  s0_v8 (W0 m ρ c)
theorem w1_v9 (c : Dev nD) : W1 m ρ c (Proc.devRef .tc main_v9) = w1tOf (m ((c : Thread nD τ).loc main_arg3)) :=
  s0_v9 (W0 m ρ c)
theorem w1_v10 (c : Dev nD) : W1 m ρ c (Proc.devRef .tc main_v10) = rowOf (m ((c : Thread nD τ).loc main_arg4)) :=
  s0_v10 (W0 m ρ c)
theorem w1_arg5 (c : Dev nD) : W1 m ρ c (Proc.devRef .tc main_arg5) = (m ((c : Thread nD τ).loc main_arg5)) :=
  s0_arg5 (W0 m ρ c)
theorem w1_arg6 (c : Dev nD) : W1 m ρ c (Proc.devRef .tc main_arg6) = (m ((c : Thread nD τ).loc main_arg6)) :=
  s0_arg6 (W0 m ρ c)
theorem w1_arg7 (c : Dev nD) : W1 m ρ c (Proc.devRef .tc main_arg7) = (m ((c : Thread nD τ).loc main_arg7)) :=
  s0_arg7 (W0 m ρ c)

/-! ### After the first region -/

variable (hr0 : ∀ (V : Entry) (c : Dev nD), (dat0 (F := Ideal) V c).arrAt 3 cfg0.N
    = Cert.Lib.RowAffine.rowAffine (A := 30000) (K := 38) (C := 512) (V c main_v8) (V c main_v9) (V c main_v10))
theorem w2_v1 (c : Dev nD) : W2 m ρ c (Proc.devRef .tc main_v1) = rowsAt m c :=
  (W2_of_ne m ρ c main_v1 (by decide)).trans (w1_v1 m ρ c)
theorem w2_v3 (c : Dev nD) : W2 m ρ c (Proc.devRef .tc main_v3) = colsAt m c :=
  (W2_of_ne m ρ c main_v3 (by decide)).trans (w1_v3 m ρ c)
theorem w2_v7 (c : Dev nD) : W2 m ρ c (Proc.devRef .tc main_v7) = wgtAt m c :=
  (W2_of_ne m ρ c main_v7 (by decide)).trans (w1_v7 m ρ c)
theorem w2_arg5 (c : Dev nD) : W2 m ρ c (Proc.devRef .tc main_arg5) = (m ((c : Thread nD τ).loc main_arg5)) :=
  (W2_of_ne m ρ c main_arg5 (by decide)).trans (w1_arg5 m ρ c)
theorem w2_arg6 (c : Dev nD) : W2 m ρ c (Proc.devRef .tc main_arg6) = (m ((c : Thread nD τ).loc main_arg6)) :=
  (W2_of_ne m ρ c main_arg6 (by decide)).trans (w1_arg6 m ρ c)
theorem w2_arg7 (c : Dev nD) : W2 m ρ c (Proc.devRef .tc main_arg7) = (m ((c : Thread nD τ).loc main_arg7)) :=
  (W2_of_ne m ρ c main_arg7 (by decide)).trans (w1_arg7 m ρ c)
include hr0 in
theorem w2_v11 (c : Dev nD) : W2 m ρ c (Proc.devRef .tc main_v11) = h0At m c := by
  refine (W2_arr m ρ c 3).trans ((hr0 (V1 m ρ) c).trans ?_)
  show Cert.Lib.RowAffine.rowAffine (A := 30000) (K := 38) (C := 512) (W1 m ρ c (Proc.devRef .tc main_v8)) (W1 m ρ c (Proc.devRef .tc main_v9)) (W1 m ρ c (Proc.devRef .tc main_v10)) = _
  rw [w1_v8, w1_v9, w1_v10]

/-! ### After the five host stretches that follow -/

theorem w7_v1 (c : Dev nD) : W7 m ρ c (Proc.devRef .tc main_v1) = rowsAt m c := (mid_v1 (W2 m ρ c)).trans (w2_v1 m ρ c)
theorem w7_v3 (c : Dev nD) : W7 m ρ c (Proc.devRef .tc main_v3) = colsAt m c := (mid_v3 (W2 m ρ c)).trans (w2_v3 m ρ c)
theorem w7_arg5 (c : Dev nD) : W7 m ρ c (Proc.devRef .tc main_arg5) = (m ((c : Thread nD τ).loc main_arg5)) := (mid_arg5 (W2 m ρ c)).trans (w2_arg5 m ρ c)
theorem w7_arg6 (c : Dev nD) : W7 m ρ c (Proc.devRef .tc main_arg6) = (m ((c : Thread nD τ).loc main_arg6)) := (mid_arg6 (W2 m ρ c)).trans (w2_arg6 m ρ c)
theorem w7_arg7 (c : Dev nD) : W7 m ρ c (Proc.devRef .tc main_arg7) = (m ((c : Thread nD τ).loc main_arg7)) := (mid_arg7 (W2 m ρ c)).trans (w2_arg7 m ρ c)
theorem w7_v37 (c : Dev nD) : W7 m ρ c (Proc.devRef .tc main_v37) = normAt m c := by
  refine (mid_v37 (W2 m ρ c)).trans ?_
  rw [w2_v1, w2_v3, w2_v7]
include hr0 in
theorem w7_v11 (c : Dev nD) : W7 m ρ c (Proc.devRef .tc main_v11) = h0At m c := (mid_v11 (W2 m ρ c)).trans (w2_v11 m ρ hr0 c)
include hr0 in
theorem w7_v50 (c : Dev nD) : W7 m ρ c (Proc.devRef .tc main_v50) = aggAt m c (h0At m c) := by
  refine (mid_v50 (W2 m ρ c)).trans ?_
  rw [w2_v1, w2_v3, w2_v7, w2_v11 m ρ hr0]

/-! ### After the second region -/

variable (hr1 : ∀ (V : Entry) (c : Dev nD), (dat1 (F := Ideal) V c).arrAt 3 cfg1.N
    = Cert.Gcn.combine (A := 30000) (V c main_v50) (V c main_v11) (V c main_arg5))
theorem w8_v1 (c : Dev nD) : W8 m ρ c (Proc.devRef .tc main_v1) = rowsAt m c :=
  (W8_of_ne m ρ c main_v1 (by decide)).trans (w7_v1 m ρ c)
theorem w8_v3 (c : Dev nD) : W8 m ρ c (Proc.devRef .tc main_v3) = colsAt m c :=
  (W8_of_ne m ρ c main_v3 (by decide)).trans (w7_v3 m ρ c)
theorem w8_v37 (c : Dev nD) : W8 m ρ c (Proc.devRef .tc main_v37) = normAt m c :=
  (W8_of_ne m ρ c main_v37 (by decide)).trans (w7_v37 m ρ c)
theorem w8_arg6 (c : Dev nD) : W8 m ρ c (Proc.devRef .tc main_arg6) = (m ((c : Thread nD τ).loc main_arg6)) :=
  (W8_of_ne m ρ c main_arg6 (by decide)).trans (w7_arg6 m ρ c)
theorem w8_arg7 (c : Dev nD) : W8 m ρ c (Proc.devRef .tc main_arg7) = (m ((c : Thread nD τ).loc main_arg7)) :=
  (W8_of_ne m ρ c main_arg7 (by decide)).trans (w7_arg7 m ρ c)
include hr0 in
theorem w8_v11 (c : Dev nD) : W8 m ρ c (Proc.devRef .tc main_v11) = h0At m c :=
  ((W8_arr m ρ c 1).trans (((dat1 (V7 m ρ) c).arrAt_in 1 rfl _).trans (A_eq1 (V7 m ρ) c 1))).trans (w7_v11 m ρ hr0 c)
include hr0 hr1 in
theorem w8_v51 (c : Dev nD) : W8 m ρ c (Proc.devRef .tc main_v51) = h1At m c := by
  refine (W8_arr m ρ c 3).trans ((hr1 (V7 m ρ) c).trans ?_)
  show Cert.Gcn.combine (A := 30000) (W7 m ρ c (Proc.devRef .tc main_v50)) (W7 m ρ c (Proc.devRef .tc main_v11)) (W7 m ρ c (Proc.devRef .tc main_arg5)) = _
  rw [w7_v50 m ρ hr0, w7_v11 m ρ hr0, w7_arg5]

/-! ### After the host stretch that follows -/

theorem w9_v1 (c : Dev nD) : W9 m ρ c (Proc.devRef .tc main_v1) = rowsAt m c :=
  (s2_v1 (W8 m ρ c)).trans (w8_v1 m ρ c)
theorem w9_v3 (c : Dev nD) : W9 m ρ c (Proc.devRef .tc main_v3) = colsAt m c :=
  (s2_v3 (W8 m ρ c)).trans (w8_v3 m ρ c)
theorem w9_v37 (c : Dev nD) : W9 m ρ c (Proc.devRef .tc main_v37) = normAt m c :=
  (s2_v37 (W8 m ρ c)).trans (w8_v37 m ρ c)
theorem w9_arg6 (c : Dev nD) : W9 m ρ c (Proc.devRef .tc main_arg6) = (m ((c : Thread nD τ).loc main_arg6)) :=
  (s2_arg6 (W8 m ρ c)).trans (w8_arg6 m ρ c)
theorem w9_arg7 (c : Dev nD) : W9 m ρ c (Proc.devRef .tc main_arg7) = (m ((c : Thread nD τ).loc main_arg7)) :=
  (s2_arg7 (W8 m ρ c)).trans (w8_arg7 m ρ c)
include hr0 in
theorem w9_v11 (c : Dev nD) : W9 m ρ c (Proc.devRef .tc main_v11) = h0At m c := (s2_v11 (W8 m ρ c)).trans (w8_v11 m ρ hr0 c)
include hr0 hr1 in
theorem w9_v64 (c : Dev nD) : W9 m ρ c (Proc.devRef .tc main_v64) = aggAt m c (h1At m c) := by
  refine (s2_v64 (W8 m ρ c)).trans ?_
  rw [w8_v1, w8_v3, w8_v37, w8_v51 m ρ hr0 hr1]

/-! ### After the third region -/

variable (hr2 : ∀ (V : Entry) (c : Dev nD), (dat2 (F := Ideal) V c).arrAt 3 cfg2.N
    = Cert.Gcn.combine (A := 30000) (V c main_v64) (V c main_v11) (V c main_arg6))
theorem w10_v1 (c : Dev nD) : W10 m ρ c (Proc.devRef .tc main_v1) = rowsAt m c :=
  (W10_of_ne m ρ c main_v1 (by decide)).trans (w9_v1 m ρ c)
theorem w10_v3 (c : Dev nD) : W10 m ρ c (Proc.devRef .tc main_v3) = colsAt m c :=
  (W10_of_ne m ρ c main_v3 (by decide)).trans (w9_v3 m ρ c)
theorem w10_v37 (c : Dev nD) : W10 m ρ c (Proc.devRef .tc main_v37) = normAt m c :=
  (W10_of_ne m ρ c main_v37 (by decide)).trans (w9_v37 m ρ c)
theorem w10_arg7 (c : Dev nD) : W10 m ρ c (Proc.devRef .tc main_arg7) = (m ((c : Thread nD τ).loc main_arg7)) :=
  (W10_of_ne m ρ c main_arg7 (by decide)).trans (w9_arg7 m ρ c)
include hr0 in
theorem w10_v11 (c : Dev nD) : W10 m ρ c (Proc.devRef .tc main_v11) = h0At m c :=
  ((W10_arr m ρ c 1).trans (((dat2 (V9 m ρ) c).arrAt_in 1 rfl _).trans (A_eq2 (V9 m ρ) c 1))).trans (w9_v11 m ρ hr0 c)
include hr0 hr1 hr2 in
theorem w10_v65 (c : Dev nD) : W10 m ρ c (Proc.devRef .tc main_v65) = h2At m c := by
  refine (W10_arr m ρ c 3).trans ((hr2 (V9 m ρ) c).trans ?_)
  show Cert.Gcn.combine (A := 30000) (W9 m ρ c (Proc.devRef .tc main_v64)) (W9 m ρ c (Proc.devRef .tc main_v11)) (W9 m ρ c (Proc.devRef .tc main_arg6)) = _
  rw [w9_v64 m ρ hr0 hr1, w9_v11 m ρ hr0, w9_arg6]

/-! ### After the last host stretch -/

theorem w11_arg7 (c : Dev nD) : W11 m ρ c (Proc.devRef .tc main_arg7) = (m ((c : Thread nD τ).loc main_arg7)) := (s3_arg7 (W10 m ρ c)).trans (w10_arg7 m ρ c)
include hr0 in
theorem w11_v11 (c : Dev nD) : W11 m ρ c (Proc.devRef .tc main_v11) = h0At m c := (s3_v11 (W10 m ρ c)).trans (w10_v11 m ρ hr0 c)
include hr0 hr1 hr2 in
theorem w11_v78 (c : Dev nD) : W11 m ρ c (Proc.devRef .tc main_v78) = aggAt m c (h2At m c) := by
  refine (s3_v78 (W10 m ρ c)).trans ?_
  rw [w10_v1, w10_v3, w10_v37, w10_v65 m ρ hr0 hr1 hr2]

/-! ### After the last region: the result -/

variable (hr3 : ∀ (V : Entry) (c : Dev nD), (dat3 (F := Ideal) V c).arrAt 3 cfg3.N
    = Cert.Gcn.combine (A := 30000) (V c main_v78) (V c main_v11) (V c main_arg7))

include hr0 hr1 hr2 hr3 in
/-- At the last boundary the result array holds the three-layer network of the argument arrays. -/
theorem result (c : Dev nD) :
    W12 m ρ c (Proc.devRef .tc main_v79)
      = Cert.Gcn.net (aggAt m c) (h0At m c) (m ((c : Thread nD τ).loc main_arg5)) (m ((c : Thread nD τ).loc main_arg6)) (m ((c : Thread nD τ).loc main_arg7)) := by
  refine (W12_arr m ρ c 3).trans ((hr3 (V11 m ρ) c).trans ?_)
  show Cert.Gcn.combine (A := 30000) (W11 m ρ c (Proc.devRef .tc main_v78)) (W11 m ρ c (Proc.devRef .tc main_v11)) (W11 m ρ c (Proc.devRef .tc main_arg7)) = _
  rw [w11_v78 m ρ hr0 hr1 hr2, w11_v11 m ρ hr0, w11_arg7]
  rfl

end Chain

end Cert.KernelIdeal.KFold

end
-- ==== Proof.Region0.lean ====
/-
  The first region: the linear layer, 30 blocks of 1000 rows.

  Each grid point t takes rows 1000·t … 1000·t + 999 of the features [30000, 38], the whole weight matrix [38, 512] and
  the whole one-row bias [1, 512], and writes the same rows of the output [30000, 512]: entry (p, q) of the block is
  Σ_k x[1000·t + p, k]·w[k, q] + r[0, q]. The 30 blocks tile the output, so the array the region leaves is x·w + r.
-/
import proofs.«141229_j30382598652516_1_alg».proof.Proof.Gen.KernelIdeal.Frame
import proofs.«141229_j30382598652516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's stored value is x·w + r on its 1000-row block. -/
theorem pay0 (x0 : Vec Ideal S1000x38 .f32) (x1 : Vec Ideal S38x512 .f32) (x2 : Vec Ideal S1x512 .f32) :
    k0_pay1 (F := Ideal) x0 x1 x2 = Cert.Lib.RowAffine.rowAffine (A := 1000) (K := 38) (C := 512) x0 x1 x2 := by
  unfold k0_pay1
  funext i
  obtain ⟨a, c, rfl⟩ : ∃ (a : Fin 1000) (c : Fin 512), i = ix2 a c := ⟨i 0, i 1, eq_ix2 i⟩
  rw [addf_apply, Cert.Lib.RowAffine.rowAffine_apply]
  show FloatOps.matmul (DotDims.plain 1000 38 512) none _ _ (constant ⟨2, ![1000, 512]⟩ .f32 0x00000000#32) (ix2 a c) + _ = _
  rw [Cert.Lib.Matmul.matmul_zero_apply, Cert.Lib.RowAffine.rowDown_apply]
  simp only [truncf_apply, shapeCast_self]

/-- The zero offset of a rank-2 access. -/
theorem zero_offset : (![0, 0] : Fin 2 → Nat) = fun _ => 0 :=
  funext fun a => match a with | ⟨0, _⟩ => rfl | ⟨1, _⟩ => rfl

/-- The index maps over the 30 points: the feature block and the output block of point t are block row t, block
    column 0; the weights and the bias row are always their one whole block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, q) of x·w + r over a block is entry i of x·w + r over the whole arrays, as soon as row p of the block of x
    is row i₀ of x, column q of the block of w is column i₁ of w, and entry q of the block of r is entry i₁ of r. -/
theorem rowAffine_of_rows (X : S30000x38.Idx → EReal) (W : S38x512.Idx → EReal) (R : S1x512.Idx → EReal)
    (x0 : S1000x38.Idx → EReal) (x1 : S38x512.Idx → EReal) (x2 : S1x512.Idx → EReal)
    (p : Fin 1000) (q : Fin 512) (i : S30000x512.Idx)
    (h0 : ∀ k : Fin 38, x0 (ix2 p k) = X (ix2 (i 0 : Fin 30000) k))
    (h1 : ∀ k : Fin 38, x1 (ix2 k q) = W (ix2 k (i 1 : Fin 512)))
    (h2 : x2 (ix2 (0 : Fin 1) q) = R (ix2 (0 : Fin 1) (i 1 : Fin 512))) :
    Cert.Lib.RowAffine.rowAffine (A := 1000) (K := 38) (C := 512) x0 x1 x2 (ix2 p q)
      = Cert.Lib.RowAffine.rowAffine (A := 30000) (K := 38) (C := 512) X W R i := by
  rw [Cert.Lib.RowAffine.rowAffine_apply]
  show _ = (∑ k : Fin 38, X (ix2 (i 0 : Fin 30000) k) * W (ix2 k (i 1 : Fin 512))) + R (ix2 (0 : Fin 1) (i 1 : Fin 512))
  rw [h2]
  congr 1
  exact Finset.sum_congr rfl fun k _ => by rw [h0, h1]

/-- What point t writes back is block t of x·w + r of the whole arrays. -/
theorem flushed_eq (c : Dev nD) (t : Fin cfg0.N) :
    (dat0 (F := Ideal) V c).flushed 3 t = ((cfg0.win 3).blk t).view.read (Elt Ideal)
      (Cert.Lib.RowAffine.rowAffine (A := 30000) (K := 38) (C := 512) (V c main_v8) (V c main_v9) (V c main_v10)) := by
  show (cfg0.win 3).cut (grid0.coords t) ((dat0 V c).after 3 t) = _
  rw [after0_3]
  unfold out0_3
  rw [View.canon_unit_zero zero_offset]
  simp only [View.ld_unit_zero (S := S1000x38) zero_offset, View.ld_unit_zero (S := S38x512) zero_offset,
    View.ld_unit_zero (S := S1x512) zero_offset]
  rw [pay0]
  obtain ⟨e00, e01, e10, e11, e20, e21, e30, e31⟩ := index_maps t
  funext j
  obtain ⟨p, q, rfl⟩ : ∃ (p : Fin 1000) (q : Fin 512), j = ix2 p q := ⟨j 0, j 1, eq_ix2 j⟩
  show Cert.Lib.RowAffine.rowAffine (A := 1000) (K := 38) (C := 512) (iblk0 V c 0 t) (iblk0 V c 1 t) (iblk0 V c 2 t) (ix2 p q)
    = Cert.Lib.RowAffine.rowAffine (A := 30000) (K := 38) (C := 512) (V c main_v8) (V c main_v9) (V c main_v10)
        (((cfg0.win 3).blk t).view.emb (ix2 p q))
  refine rowAffine_of_rows _ _ _ _ _ _ p q _ (fun k => ?_) (fun k => ?_) ?_
  · show V c main_v8 (((cfg0.win 0).blk t).view.emb (ix2 p k))
      = V c main_v8 (ix2 ((((cfg0.win 3).blk t).view.emb (ix2 p q)) 0 : Fin 30000) k)
    refine congrArg _ (funext fun a => Fin.ext ?_)
    match a with
    | ⟨0, _⟩ =>
      show win0_0.index t (0 : Fin 2) * 1000 + 1 * p.val = win0_3.index t (0 : Fin 2) * 1000 + 1 * p.val
      omega
    | ⟨1, _⟩ =>
      show win0_0.index t (1 : Fin 2) * 38 + 1 * k.val = k.val
      omega
  · show V c main_v9 (((cfg0.win 1).blk t).view.emb (ix2 k q))
      = V c main_v9 (ix2 k ((((cfg0.win 3).blk t).view.emb (ix2 p q)) 1 : Fin 512))
    refine congrArg _ (funext fun a => Fin.ext ?_)
    match a with
    | ⟨0, _⟩ =>
      show win0_1.index t (0 : Fin 2) * 38 + 1 * k.val = k.val
      omega
    | ⟨1, _⟩ =>
      show win0_1.index t (1 : Fin 2) * 512 + 1 * q.val = win0_3.index t (1 : Fin 2) * 512 + 1 * q.val
      omega
  · show V c main_v10 (((cfg0.win 2).blk t).view.emb (ix2 (0 : Fin 1) q))
      = V c main_v10 (ix2 (0 : Fin 1) ((((cfg0.win 3).blk t).view.emb (ix2 p q)) 1 : Fin 512))
    refine congrArg _ (funext fun a => Fin.ext ?_)
    match a with
    | ⟨0, _⟩ =>
      show win0_2.index t (0 : Fin 2) * 1 + 1 * 0 = 0
      omega
    | ⟨1, _⟩ =>
      show win0_2.index t (1 : Fin 2) * 512 + 1 * q.val = win0_3.index t (1 : Fin 2) * 512 + 1 * q.val
      omega

/-- An index of the output array is in point t's block iff each coordinate is in the block's range on its axis. -/
theorem mem_blk (t : Fin cfg0.N) (i : S30000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v11).slice (win0_3.rect t)).set ↔ _
  rw [View.set_slice_whole, Rect.mem_set_unit]
  exact Iff.rfl

/-- Row r of the output is in the block of point r / 1000: the 30 blocks of 1000 rows tile the 30000 rows. -/
theorem cover (i : S30000x512.Idx) :
    ∃ t : Fin cfg0.N, (cfg0.win 3).flush t = true ∧ i ∈ ((cfg0.win 3).blk t).view.set := by
  have hi0 : (i 0).val < 30000 := (i 0).isLt
  have hi1 : (i 1).val < 512 := (i 1).isLt
  refine ⟨⟨(i 0).val / 1000, by show (i 0).val / 1000 < 30; omega⟩, flush0_3 _, ?_⟩
  rw [mem_blk]
  obtain ⟨-, -, -, -, -, -, e30, e31⟩ := index_maps ⟨(i 0).val / 1000, by show (i 0).val / 1000 < 30; omega⟩
  intro a
  match a with
  | ⟨0, _⟩ =>
    show win0_3.index _ (0 : Fin 2) * 1000 ≤ (i 0).val ∧ (i 0).val < win0_3.index _ (0 : Fin 2) * 1000 + 1000
    rw [e30]; show (i 0).val / 1000 * 1000 ≤ (i 0).val ∧ (i 0).val < (i 0).val / 1000 * 1000 + 1000; omega
  | ⟨1, _⟩ =>
    show win0_3.index _ (1 : Fin 2) * 512 ≤ (i 1).val ∧ (i 1).val < win0_3.index _ (1 : Fin 2) * 512 + 512
    rw [e31]; omega

/-- The output array after the region is x·w + r of the three arrays the region found. -/
theorem arr0 (c : Dev nD) :
    (dat0 (F := Ideal) V c).arrAt 3 cfg0.N
      = Cert.Lib.RowAffine.rowAffine (A := 30000) (K := 38) (C := 512) (V c main_v8) (V c main_v9) (V c main_v10) :=
  (dat0 (F := Ideal) V c).arrAt_eq_of_cover 3
    (Cert.Lib.RowAffine.rowAffine (A := 30000) (K := 38) (C := 512) (V c main_v8) (V c main_v9) (V c main_v10))
    (fun t _ => flushed_eq V c t) cover

end Cert.KernelIdeal.Region0

end
-- ==== Proof.Region1.lean ====
/-
  The second region: the first layer's closing step, 30 blocks of 1000 rows.

  Each grid point t takes rows 1000·t … 1000·t + 999 of the aggregated messages and of the first layer's output (both
  [30000, 512]) and the whole weight matrix [512, 512], and writes the same rows of the output: entry (p, q) of the
  block depends on row 1000·t + p of the two inputs and on column q of the weights. The 30 blocks tile the output, so
  the array the region leaves is the closing step of the three whole arrays.
-/
import proofs.«141229_j30382598652516_1_alg».proof.Proof.Gen.KernelIdeal.Frame
import proofs.«141229_j30382598652516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's stored value is the closing step on its 1000-row block: the splat scalars and the narrowing to bf16 read
    entry by entry, the product into a zero accumulator read as the sum over the 512 contracted columns. -/
theorem pay1 (x0 x1 : Vec Ideal S1000x512 .f32) (x2 : Vec Ideal S512x512 .f32) :
    k1_pay1 (F := Ideal) x0 x1 x2 = Cert.Gcn.combine (A := 1000) x0 x1 x2 := by
  funext i
  obtain ⟨a, c, rfl⟩ : ∃ (a : Fin 1000) (c : Fin 512), i = ix2 a c := ⟨i 0, i 1, eq_ix2 i⟩
  rw [Cert.Gcn.combine_apply]
  unfold k1_pay1
  rw [maximumf_apply, addf_apply, mulf_apply, mulf_apply, shapeCast_self, shapeCast_self]
  show max (_ + _ * FloatOps.matmul (DotDims.plain 1000 512 512) none _ _
      (constant ⟨2, ![1000, 512]⟩ .f32 0x00000000#32) (ix2 a c)) _ = _
  rw [Cert.Lib.Matmul.matmul_zero_apply]
  rfl

/-- The origin of a rank-2 box is the constant-zero function. -/
theorem origin_zero : (![0, 0] : Fin 2 → Nat) = fun _ => 0 :=
  funext fun a => by match a with | ⟨0, _⟩ => rfl | ⟨1, _⟩ => rfl

/-- The index maps over the 30 grid points: at point t the two row-blocked inputs and the output take block (t, 0),
    the weights block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every one of the 30 row blocks of the output is some point's. -/
theorem index_onto : ∀ q : Fin 30, ∃ t : Fin cfg1.N, win1_3.index t = ![q.val, 0] :=
  (by decide +kernel : ∀ q : Fin 30, ∃ t : Fin grid1.N, win1_3.index t = ![q.val, 0])

/-- The closing step at an entry depends on one row of its first two arguments and one column of the third: if x0 and
    x1 along the row of j are agg and h0 along the row of i, the weights are the same and the columns of j and i are
    the same, then the step of (x0, x1, x2) at j is the step of (agg, h0, wc) at i. -/
theorem combine_restrict {A B : Nat} (agg h0 : (⟨2, ![B, 512]⟩ : Shape).Idx → EReal)
    (wc : (⟨2, ![512, 512]⟩ : Shape).Idx → EReal) (x0 x1 : (⟨2, ![A, 512]⟩ : Shape).Idx → EReal)
    (x2 : (⟨2, ![512, 512]⟩ : Shape).Idx → EReal) (j : (⟨2, ![A, 512]⟩ : Shape).Idx)
    (i : (⟨2, ![B, 512]⟩ : Shape).Idx)
    (hcol : (i 1 : Fin 512) = (j 1 : Fin 512))
    (e0 : ∀ q : Fin 512, x0 (ix2 (j 0 : Fin A) q) = agg (ix2 (i 0 : Fin B) q))
    (e1 : ∀ q : Fin 512, x1 (ix2 (j 0 : Fin A) q) = h0 (ix2 (i 0 : Fin B) q))
    (e2 : x2 = wc) :
    Cert.Gcn.combine x0 x1 x2 j = Cert.Gcn.combine agg h0 wc i := by
  subst e2
  simp only [Cert.Gcn.combine, hcol, e0, e1]
  rw [e0 (j 1), e1 (j 1)]

/-- What point t writes back is rows 1000·t … 1000·t + 999 of the closing step of the three whole arrays: entry (p, q)
    of each row-blocked input block is entry (1000·t + p, q) of its array, and the weight block is the weight array. -/
theorem flushed_eq (c : Dev nD) (t : Fin cfg1.N) :
    (dat1 V c).flushed 3 t = ((cfg1.win 3).blk t).view.read (Elt Ideal)
      (Cert.Gcn.combine (A := 30000) (V c main_v50) (V c main_v11) (V c main_arg5)) := by
  show (cfg1.win 3).cut (grid1.coords t) ((dat1 V c).after 3 t) = _
  rw [after1_3]
  unfold out1_3
  rw [View.canon_unit_zero origin_zero]
  simp only [View.ld_unit_zero (S := S1000x512) origin_zero, View.ld_unit_zero (S := S512x512) origin_zero]
  rw [pay1]
  obtain ⟨e00, e01, e10, e11, e20, e21, e30, e31⟩ := index_facts t
  funext j
  show Cert.Gcn.combine (A := 1000) (iblk1 V c 0 t) (iblk1 V c 1 t) (iblk1 V c 2 t) j
    = Cert.Gcn.combine (A := 30000) (V c main_v50) (V c main_v11) (V c main_arg5)
        (((cfg1.win 3).blk t).view.emb j)
  refine combine_restrict _ _ _ _ _ _ j _ ?_ ?_ ?_ ?_
  · apply Fin.ext
    show win1_3.index t (1 : Fin 2) * 512 + 1 * (j 1).val = (j 1).val
    omega
  · intro q
    unfold iblk1
    show V c main_v50 (((cfg1.win 0).blk t).view.emb (ix2 (j 0) q))
      = V c main_v50 (ix2 ((((cfg1.win 3).blk t).view.emb j) 0) q)
    refine congrArg _ (funext fun a => Fin.ext ?_)
    match a with
    | ⟨0, _⟩ =>
      show win1_0.index t (0 : Fin 2) * 1000 + 1 * (j 0).val = win1_3.index t (0 : Fin 2) * 1000 + 1 * (j 0).val
      omega
    | ⟨1, _⟩ =>
      show win1_0.index t (1 : Fin 2) * 512 + 1 * q.val = q.val
      omega
  · intro q
    unfold iblk1
    show V c main_v11 (((cfg1.win 1).blk t).view.emb (ix2 (j 0) q))
      = V c main_v11 (ix2 ((((cfg1.win 3).blk t).view.emb j) 0) q)
    refine congrArg _ (funext fun a => Fin.ext ?_)
    match a with
    | ⟨0, _⟩ =>
      show win1_1.index t (0 : Fin 2) * 1000 + 1 * (j 0).val = win1_3.index t (0 : Fin 2) * 1000 + 1 * (j 0).val
      omega
    | ⟨1, _⟩ =>
      show win1_1.index t (1 : Fin 2) * 512 + 1 * q.val = q.val
      omega
  · funext y
    unfold iblk1
    show V c main_arg5 (((cfg1.win 2).blk t).view.emb y) = V c main_arg5 y
    refine congrArg _ (funext fun a => Fin.ext ?_)
    match a with
    | ⟨0, _⟩ =>
      show win1_2.index t (0 : Fin 2) * 512 + 1 * (y 0).val = (y 0).val
      omega
    | ⟨1, _⟩ =>
      show win1_2.index t (1 : Fin 2) * 512 + 1 * (y 1).val = (y 1).val
      omega

/-- An index of the output array is in point t's block iff each coordinate is in the block's range on its axis. -/
theorem mem_blk (t : Fin cfg1.N) (i : S30000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v51).slice (win1_3.rect t)).set ↔ _
  rw [View.set_slice_whole, Rect.mem_set_unit]
  exact Iff.rfl

/-- Row r of the output lies in the block of the point whose row block is r / 1000, so the 30 blocks cover the array. -/
theorem cover (i : S30000x512.Idx) :
    ∃ t : Fin cfg1.N, (cfg1.win 3).flush t = true ∧ i ∈ ((cfg1.win 3).blk t).view.set := by
  have hi0 : (i 0).val < 30000 := (i 0).isLt
  have hi1 : (i 1).val < 512 := (i 1).isLt
  obtain ⟨t, ht⟩ := index_onto ⟨(i 0).val / 1000, by omega⟩
  have q0 : win1_3.index t (0 : Fin 2) = (i 0).val / 1000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 512 ≤ (i 1).val ∧ (i 1).val < win1_3.index t (1 : Fin 2) * 512 + 512
    omega

/-- The output array after the region is the closing step of the three arrays the region found. -/
theorem arr1 (c : Dev nD) :
    (dat1 (F := Ideal) V c).arrAt 3 cfg1.N
      = Cert.Gcn.combine (A := 30000) (V c main_v50) (V c main_v11) (V c main_arg5) :=
  (dat1 V c).arrAt_eq_of_cover 3 (Cert.Gcn.combine (A := 30000) (V c main_v50) (V c main_v11) (V c main_arg5))
    (fun t _ => flushed_eq V c t) cover

end Cert.KernelIdeal.Region1

end
-- ==== Proof.Region2.lean ====
/-
  The third region: the second layer's closing step, 30 blocks of 1000 rows.

  Each grid point t takes rows 1000·t … 1000·t + 999 of the aggregated messages and of the first layer's output (both
  [30000, 512]) and the whole weight matrix [512, 512], and writes the same rows of the output: entry (p, q) of the
  block depends on row 1000·t + p of the two inputs and on column q of the weights. The 30 blocks tile the output, so
  the array the region leaves is the closing step of the three whole arrays.
-/
import proofs.«141229_j30382598652516_1_alg».proof.Proof.Gen.KernelIdeal.Frame
import proofs.«141229_j30382598652516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's stored value is the closing step on its 1000-row block: the splat scalars and the narrowing to bf16 read
    entry by entry, the product into a zero accumulator read as the sum over the 512 contracted columns. -/
theorem pay2 (x0 x1 : Vec Ideal S1000x512 .f32) (x2 : Vec Ideal S512x512 .f32) :
    k2_pay1 (F := Ideal) x0 x1 x2 = Cert.Gcn.combine (A := 1000) x0 x1 x2 := by
  funext i
  obtain ⟨a, c, rfl⟩ : ∃ (a : Fin 1000) (c : Fin 512), i = ix2 a c := ⟨i 0, i 1, eq_ix2 i⟩
  rw [Cert.Gcn.combine_apply]
  unfold k2_pay1
  rw [maximumf_apply, addf_apply, mulf_apply, mulf_apply, shapeCast_self, shapeCast_self]
  show max (_ + _ * FloatOps.matmul (DotDims.plain 1000 512 512) none _ _
      (constant ⟨2, ![1000, 512]⟩ .f32 0x00000000#32) (ix2 a c)) _ = _
  rw [Cert.Lib.Matmul.matmul_zero_apply]
  rfl

/-- The origin of a rank-2 box is the constant-zero function. -/
theorem origin_zero : (![0, 0] : Fin 2 → Nat) = fun _ => 0 :=
  funext fun a => by match a with | ⟨0, _⟩ => rfl | ⟨1, _⟩ => rfl

/-- The index maps over the 30 grid points: at point t the two row-blocked inputs and the output take block (t, 0),
    the weights block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every one of the 30 row blocks of the output is some point's. -/
theorem index_onto : ∀ q : Fin 30, ∃ t : Fin cfg2.N, win2_3.index t = ![q.val, 0] :=
  (by decide +kernel : ∀ q : Fin 30, ∃ t : Fin grid2.N, win2_3.index t = ![q.val, 0])

/-- The closing step at an entry depends on one row of its first two arguments and one column of the third: if x0 and
    x1 along the row of j are agg and h0 along the row of i, the weights are the same and the columns of j and i are
    the same, then the step of (x0, x1, x2) at j is the step of (agg, h0, wc) at i. -/
theorem combine_restrict {A B : Nat} (agg h0 : (⟨2, ![B, 512]⟩ : Shape).Idx → EReal)
    (wc : (⟨2, ![512, 512]⟩ : Shape).Idx → EReal) (x0 x1 : (⟨2, ![A, 512]⟩ : Shape).Idx → EReal)
    (x2 : (⟨2, ![512, 512]⟩ : Shape).Idx → EReal) (j : (⟨2, ![A, 512]⟩ : Shape).Idx)
    (i : (⟨2, ![B, 512]⟩ : Shape).Idx)
    (hcol : (i 1 : Fin 512) = (j 1 : Fin 512))
    (e0 : ∀ q : Fin 512, x0 (ix2 (j 0 : Fin A) q) = agg (ix2 (i 0 : Fin B) q))
    (e1 : ∀ q : Fin 512, x1 (ix2 (j 0 : Fin A) q) = h0 (ix2 (i 0 : Fin B) q))
    (e2 : x2 = wc) :
    Cert.Gcn.combine x0 x1 x2 j = Cert.Gcn.combine agg h0 wc i := by
  subst e2
  simp only [Cert.Gcn.combine, hcol, e0, e1]
  rw [e0 (j 1), e1 (j 1)]

/-- What point t writes back is rows 1000·t … 1000·t + 999 of the closing step of the three whole arrays: entry (p, q)
    of each row-blocked input block is entry (1000·t + p, q) of its array, and the weight block is the weight array. -/
theorem flushed_eq (c : Dev nD) (t : Fin cfg2.N) :
    (dat2 V c).flushed 3 t = ((cfg2.win 3).blk t).view.read (Elt Ideal)
      (Cert.Gcn.combine (A := 30000) (V c main_v64) (V c main_v11) (V c main_arg6)) := by
  show (cfg2.win 3).cut (grid2.coords t) ((dat2 V c).after 3 t) = _
  rw [after2_3]
  unfold out2_3
  rw [View.canon_unit_zero origin_zero]
  simp only [View.ld_unit_zero (S := S1000x512) origin_zero, View.ld_unit_zero (S := S512x512) origin_zero]
  rw [pay2]
  obtain ⟨e00, e01, e10, e11, e20, e21, e30, e31⟩ := index_facts t
  funext j
  show Cert.Gcn.combine (A := 1000) (iblk2 V c 0 t) (iblk2 V c 1 t) (iblk2 V c 2 t) j
    = Cert.Gcn.combine (A := 30000) (V c main_v64) (V c main_v11) (V c main_arg6)
        (((cfg2.win 3).blk t).view.emb j)
  refine combine_restrict _ _ _ _ _ _ j _ ?_ ?_ ?_ ?_
  · apply Fin.ext
    show win2_3.index t (1 : Fin 2) * 512 + 1 * (j 1).val = (j 1).val
    omega
  · intro q
    unfold iblk2
    show V c main_v64 (((cfg2.win 0).blk t).view.emb (ix2 (j 0) q))
      = V c main_v64 (ix2 ((((cfg2.win 3).blk t).view.emb j) 0) q)
    refine congrArg _ (funext fun a => Fin.ext ?_)
    match a with
    | ⟨0, _⟩ =>
      show win2_0.index t (0 : Fin 2) * 1000 + 1 * (j 0).val = win2_3.index t (0 : Fin 2) * 1000 + 1 * (j 0).val
      omega
    | ⟨1, _⟩ =>
      show win2_0.index t (1 : Fin 2) * 512 + 1 * q.val = q.val
      omega
  · intro q
    unfold iblk2
    show V c main_v11 (((cfg2.win 1).blk t).view.emb (ix2 (j 0) q))
      = V c main_v11 (ix2 ((((cfg2.win 3).blk t).view.emb j) 0) q)
    refine congrArg _ (funext fun a => Fin.ext ?_)
    match a with
    | ⟨0, _⟩ =>
      show win2_1.index t (0 : Fin 2) * 1000 + 1 * (j 0).val = win2_3.index t (0 : Fin 2) * 1000 + 1 * (j 0).val
      omega
    | ⟨1, _⟩ =>
      show win2_1.index t (1 : Fin 2) * 512 + 1 * q.val = q.val
      omega
  · funext y
    unfold iblk2
    show V c main_arg6 (((cfg2.win 2).blk t).view.emb y) = V c main_arg6 y
    refine congrArg _ (funext fun a => Fin.ext ?_)
    match a with
    | ⟨0, _⟩ =>
      show win2_2.index t (0 : Fin 2) * 512 + 1 * (y 0).val = (y 0).val
      omega
    | ⟨1, _⟩ =>
      show win2_2.index t (1 : Fin 2) * 512 + 1 * (y 1).val = (y 1).val
      omega

/-- An index of the output array is in point t's block iff each coordinate is in the block's range on its axis. -/
theorem mem_blk (t : Fin cfg2.N) (i : S30000x512.Idx) :
    i ∈ ((cfg2.win 3).blk t).view.set ↔ ∀ a : Fin 2, win2_3.index t a * S1000x512.size a ≤ (i a).val
      ∧ (i a).val < win2_3.index t a * S1000x512.size a + S1000x512.size a := by
  show i ∈ ((View.whole main_v65).slice (win2_3.rect t)).set ↔ _
  rw [View.set_slice_whole, Rect.mem_set_unit]
  exact Iff.rfl

/-- Row r of the output lies in the block of the point whose row block is r / 1000, so the 30 blocks cover the array. -/
theorem cover (i : S30000x512.Idx) :
    ∃ t : Fin cfg2.N, (cfg2.win 3).flush t = true ∧ i ∈ ((cfg2.win 3).blk t).view.set := by
  have hi0 : (i 0).val < 30000 := (i 0).isLt
  have hi1 : (i 1).val < 512 := (i 1).isLt
  obtain ⟨t, ht⟩ := index_onto ⟨(i 0).val / 1000, by omega⟩
  have q0 : win2_3.index t (0 : Fin 2) = (i 0).val / 1000 := congrFun ht 0
  have q1 : win2_3.index t (1 : Fin 2) = 0 := congrFun ht 1
  refine ⟨t, flush2_3 t, ?_⟩
  rw [mem_blk]
  intro a
  match a with
  | ⟨0, _⟩ =>
    show win2_3.index t (0 : Fin 2) * 1000 ≤ (i 0).val ∧ (i 0).val < win2_3.index t (0 : Fin 2) * 1000 + 1000
    omega
  | ⟨1, _⟩ =>
    show win2_3.index t (1 : Fin 2) * 512 ≤ (i 1).val ∧ (i 1).val < win2_3.index t (1 : Fin 2) * 512 + 512
    omega

/-- The output array after the region is the closing step of the three arrays the region found. -/
theorem arr2 (c : Dev nD) :
    (dat2 (F := Ideal) V c).arrAt 3 cfg2.N
      = Cert.Gcn.combine (A := 30000) (V c main_v64) (V c main_v11) (V c main_arg6) :=
  (dat2 V c).arrAt_eq_of_cover 3 (Cert.Gcn.combine (A := 30000) (V c main_v64) (V c main_v11) (V c main_arg6))
    (fun t _ => flushed_eq V c t) cover

end Cert.KernelIdeal.Region2

end
-- ==== Proof.Region3.lean ====
/-
  The fourth region: the third layer's closing step, 30 blocks of 1000 rows.

  Each grid point t takes rows 1000·t … 1000·t + 999 of the aggregated messages and of the first layer's output (both
  [30000, 512]) and the whole weight matrix [512, 512], and writes the same rows of the output: entry (p, q) of the
  block depends on row 1000·t + p of the two inputs and on column q of the weights. The 30 blocks tile the output, so
  the array the region leaves is the closing step of the three whole arrays.
-/
import proofs.«141229_j30382598652516_1_alg».proof.Proof.Gen.KernelIdeal.Frame
import proofs.«141229_j30382598652516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The body's stored value is the closing step on its 1000-row block: the splat scalars and the narrowing to bf16 read
    entry by entry, the product into a zero accumulator read as the sum over the 512 contracted columns. -/
theorem pay3 (x0 x1 : Vec Ideal S1000x512 .f32) (x2 : Vec Ideal S512x512 .f32) :
    k3_pay1 (F := Ideal) x0 x1 x2 = Cert.Gcn.combine (A := 1000) x0 x1 x2 := by
  funext i
  obtain ⟨a, c, rfl⟩ : ∃ (a : Fin 1000) (c : Fin 512), i = ix2 a c := ⟨i 0, i 1, eq_ix2 i⟩
  rw [Cert.Gcn.combine_apply]
  unfold k3_pay1
  rw [maximumf_apply, addf_apply, mulf_apply, mulf_apply, shapeCast_self, shapeCast_self]
  show max (_ + _ * FloatOps.matmul (DotDims.plain 1000 512 512) none _ _
      (constant ⟨2, ![1000, 512]⟩ .f32 0x00000000#32) (ix2 a c)) _ = _
  rw [Cert.Lib.Matmul.matmul_zero_apply]
  rfl

/-- The origin of a rank-2 box is the constant-zero function. -/
theorem origin_zero : (![0, 0] : Fin 2 → Nat) = fun _ => 0 :=
  funext fun a => by match a with | ⟨0, _⟩ => rfl | ⟨1, _⟩ => rfl

/-- The index maps over the 30 grid points: at point t the two row-blocked inputs and the output take block (t, 0),
    the weights block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every one of the 30 row blocks of the output is some point's. -/
theorem index_onto : ∀ q : Fin 30, ∃ t : Fin cfg3.N, win3_3.index t = ![q.val, 0] :=
  (by decide +kernel : ∀ q : Fin 30, ∃ t : Fin grid3.N, win3_3.index t = ![q.val, 0])

/-- The closing step at an entry depends on one row of its first two arguments and one column of the third: if x0 and
    x1 along the row of j are agg and h0 along the row of i, the weights are the same and the columns of j and i are
    the same, then the step of (x0, x1, x2) at j is the step of (agg, h0, wc) at i. -/
theorem combine_restrict {A B : Nat} (agg h0 : (⟨2, ![B, 512]⟩ : Shape).Idx → EReal)
    (wc : (⟨2, ![512, 512]⟩ : Shape).Idx → EReal) (x0 x1 : (⟨2, ![A, 512]⟩ : Shape).Idx → EReal)
    (x2 : (⟨2, ![512, 512]⟩ : Shape).Idx → EReal) (j : (⟨2, ![A, 512]⟩ : Shape).Idx)
    (i : (⟨2, ![B, 512]⟩ : Shape).Idx)
    (hcol : (i 1 : Fin 512) = (j 1 : Fin 512))
    (e0 : ∀ q : Fin 512, x0 (ix2 (j 0 : Fin A) q) = agg (ix2 (i 0 : Fin B) q))
    (e1 : ∀ q : Fin 512, x1 (ix2 (j 0 : Fin A) q) = h0 (ix2 (i 0 : Fin B) q))
    (e2 : x2 = wc) :
    Cert.Gcn.combine x0 x1 x2 j = Cert.Gcn.combine agg h0 wc i := by
  subst e2
  simp only [Cert.Gcn.combine, hcol, e0, e1]
  rw [e0 (j 1), e1 (j 1)]

/-- What point t writes back is rows 1000·t … 1000·t + 999 of the closing step of the three whole arrays: entry (p, q)
    of each row-blocked input block is entry (1000·t + p, q) of its array, and the weight block is the weight array. -/
theorem flushed_eq (c : Dev nD) (t : Fin cfg3.N) :
    (dat3 V c).flushed 3 t = ((cfg3.win 3).blk t).view.read (Elt Ideal)
      (Cert.Gcn.combine (A := 30000) (V c main_v78) (V c main_v11) (V c main_arg7)) := by
  show (cfg3.win 3).cut (grid3.coords t) ((dat3 V c).after 3 t) = _
  rw [after3_3]
  unfold out3_3
  rw [View.canon_unit_zero origin_zero]
  simp only [View.ld_unit_zero (S := S1000x512) origin_zero, View.ld_unit_zero (S := S512x512) origin_zero]
  rw [pay3]
  obtain ⟨e00, e01, e10, e11, e20, e21, e30, e31⟩ := index_facts t
  funext j
  show Cert.Gcn.combine (A := 1000) (iblk3 V c 0 t) (iblk3 V c 1 t) (iblk3 V c 2 t) j
    = Cert.Gcn.combine (A := 30000) (V c main_v78) (V c main_v11) (V c main_arg7)
        (((cfg3.win 3).blk t).view.emb j)
  refine combine_restrict _ _ _ _ _ _ j _ ?_ ?_ ?_ ?_
  · apply Fin.ext
    show win3_3.index t (1 : Fin 2) * 512 + 1 * (j 1).val = (j 1).val
    omega
  · intro q
    unfold iblk3
    show V c main_v78 (((cfg3.win 0).blk t).view.emb (ix2 (j 0) q))
      = V c main_v78 (ix2 ((((cfg3.win 3).blk t).view.emb j) 0) q)
    refine congrArg _ (funext fun a => Fin.ext ?_)
    match a with
    | ⟨0, _⟩ =>
      show win3_0.index t (0 : Fin 2) * 1000 + 1 * (j 0).val = win3_3.index t (0 : Fin 2) * 1000 + 1 * (j 0).val
      omega
    | ⟨1, _⟩ =>
      show win3_0.index t (1 : Fin 2) * 512 + 1 * q.val = q.val
      omega
  · intro q
    unfold iblk3
    show V c main_v11 (((cfg3.win 1).blk t).view.emb (ix2 (j 0) q))
      = V c main_v11 (ix2 ((((cfg3.win 3).blk t).view.emb j) 0) q)
    refine congrArg _ (funext fun a => Fin.ext ?_)
    match a with
    | ⟨0, _⟩ =>
      show win3_1.index t (0 : Fin 2) * 1000 + 1 * (j 0).val = win3_3.index t (0 : Fin 2) * 1000 + 1 * (j 0).val
      omega
    | ⟨1, _⟩ =>
      show win3_1.index t (1 : Fin 2) * 512 + 1 * q.val = q.val
      omega
  · funext y
    unfold iblk3
    show V c main_arg7 (((cfg3.win 2).blk t).view.emb y) = V c main_arg7 y
    refine congrArg _ (funext fun a => Fin.ext ?_)
    match a with
    | ⟨0, _⟩ =>
      show win3_2.index t (0 : Fin 2) * 512 + 1 * (y 0).val = (y 0).val
      omega
    | ⟨1, _⟩ =>
      show win3_2.index t (1 : Fin 2) * 512 + 1 * (y 1).val = (y 1).val
      omega

/-- An index of the output array is in point t's block iff each coordinate is in the block's range on its axis. -/
theorem mem_blk (t : Fin cfg3.N) (i : S30000x512.Idx) :
    i ∈ ((cfg3.win 3).blk t).view.set ↔ ∀ a : Fin 2, win3_3.index t a * S1000x512.size a ≤ (i a).val
      ∧ (i a).val < win3_3.index t a * S1000x512.size a + S1000x512.size a := by
  show i ∈ ((View.whole main_v79).slice (win3_3.rect t)).set ↔ _
  rw [View.set_slice_whole, Rect.mem_set_unit]
  exact Iff.rfl

/-- Row r of the output lies in the block of the point whose row block is r / 1000, so the 30 blocks cover the array. -/
theorem cover (i : S30000x512.Idx) :
    ∃ t : Fin cfg3.N, (cfg3.win 3).flush t = true ∧ i ∈ ((cfg3.win 3).blk t).view.set := by
  have hi0 : (i 0).val < 30000 := (i 0).isLt
  have hi1 : (i 1).val < 512 := (i 1).isLt
  obtain ⟨t, ht⟩ := index_onto ⟨(i 0).val / 1000, by omega⟩
  have q0 : win3_3.index t (0 : Fin 2) = (i 0).val / 1000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 1000 ≤ (i 0).val ∧ (i 0).val < win3_3.index t (0 : Fin 2) * 1000 + 1000
    omega
  | ⟨1, _⟩ =>
    show win3_3.index t (1 : Fin 2) * 512 ≤ (i 1).val ∧ (i 1).val < win3_3.index t (1 : Fin 2) * 512 + 512
    omega

/-- The output array after the region is the closing step of the three arrays the region found. -/
theorem arr3 (c : Dev nD) :
    (dat3 (F := Ideal) V c).arrAt 3 cfg3.N
      = Cert.Gcn.combine (A := 30000) (V c main_v78) (V c main_v11) (V c main_arg7) :=
  (dat3 V c).arrAt_eq_of_cover 3 (Cert.Gcn.combine (A := 30000) (V c main_v78) (V c main_v11) (V c main_arg7))
    (fun t _ => flushed_eq V c t) cover

end Cert.KernelIdeal.Region3

end
-- ==== Proof.RefValue.lean ====
/-
  The reference's result as the three-layer network of whole-array functions.

  The reference computes h0 = feat·W1ᵀ + b1 by a product and a broadcast of the bias, and each layer by gathering rows
  of the previous activations, weighting them, scatter-adding over the target nodes, mixing with h0 (0.8 and 0.2),
  multiplying by the layer's weights, and clamping at zero. Entry by entry these are the functions rowAffine and
  combine; the graph aggregation is kept as the reference spells it.

  The argument: (1) entry (a, c) of the product-plus-bias is Σ_k feat[a, k]·W1ᵀ[k, c] + b1[c], which is rowAffine;
  (2) for any aggregated array agg, the closing step max(0·out + 1·(out·w), 0) with out = 0.8·agg + 0.2·h0 read at
  (a, c) is the formula of combine, the five scalar arrays being constant; (3) each layer's stages are that closing
  step applied to the aggregation of the previous layer's output; (4) the three layers compose to net.
-/
import proofs.«141229_j30382598652516_1_alg».proof.Proof.Gen.ReferenceIdeal.Run
import proofs.«141229_j30382598652516_1_alg».proof.Proof.Gen.ReferenceIdeal.Read
import proofs.«141229_j30382598652516_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue
open Cert.ReferenceIdeal Cert.ReferenceIdeal.Gen Cert.ReferenceIdeal.Read Idealize.ShloMosaic Idealize.ShloMosaic.TcCoe Idealize.ShloMosaic.ValueIdx Idealize.SL.Sem

def aggR (x1 : (⟨S2x240000, .i32⟩ : BufTy).Contents (Elt Ideal)) (x2 : (⟨S240000x4, .f32⟩ : BufTy).Contents (Elt Ideal))
    (h : FVec Ideal S30000x512 .f32) : FVec Ideal S30000x512 .f32 :=
  Host.scatterAdd (F := Ideal) scatter_S30000x512_S240000x1_S240000x512_1_0_0_1 (val_main_v50 (F := Ideal)) (val_main_v51 (F := Ideal) x1)
    (mulf (F := Ideal) (Host.gather gather_S30000x512_S240000x1_S240000x512_1_0_n_n_0_1_1512 h (val_main_v45 (F := Ideal) x1))
      (val_main_v48 (F := Ideal) x1 x2))

/-- The first product, at entry (a, c): the sum over the 38 features. -/
theorem dot38_apply (y : FVec Ideal S30000x38 .f32) (w : FVec Ideal S38x512 .f32) (a : Fin 30000) (c : Fin 512) :
    Host.dotGeneral (F := Ideal) dot_S30000x38_S38x512_S30000x512_1_0_0_1_n_n none y w (ix2 a c)
      = ∑ k : Fin 38, y (ix2 a k) * w (ix2 k c) := by
  simp only [Host.dotGeneral]
  exact Cert.Lib.Matmul.dotGeneral_apply (A := 30000) (K := 38) (C := 512) none _ y w a c

/-- A layer's product, at entry (a, c): the sum over the 512 hidden units. -/
theorem dot512_apply (y : FVec Ideal S30000x512 .f32) (w : FVec Ideal S512x512 .f32) (a : Fin 30000) (c : Fin 512) :
    Host.dotGeneral (F := Ideal) dot_S30000x512_S512x512_S30000x512_1_0_0_1_n_n none y w (ix2 a c)
      = ∑ k : Fin 512, y (ix2 a k) * w (ix2 k c) := by
  simp only [Host.dotGeneral]
  exact Cert.Lib.Matmul.dotGeneral_apply (A := 30000) (K := 512) (C := 512) none _ y w a c

/-- The bias broadcast down the rows reads, at (a, c), the one-row matrix at (0, c). -/
theorem bias_apply (x4 : (⟨S512, .f32⟩ : BufTy).Contents (Elt Ideal)) (a : Fin 30000) (c : Fin 512) :
    val_main_v12 (F := Ideal) x4 (ix2 a c) = val_main_v11 (F := Ideal) x4 (ix2 (0 : Fin 1) c) := by
  rw [val_main_v12_apply]
  refine congrArg _ (funext fun d => ?_)
  match d with
  | ⟨0, _⟩ => rfl
  | ⟨1, _⟩ => rfl

/-- (1) The first layer: the product plus the broadcast bias is rowAffine of the sliced features, the transposed
    weights and the bias row. -/
theorem lin_eq (x0 : (⟨S30000x41, .f32⟩ : BufTy).Contents (Elt Ideal)) (x3 : (⟨S512x38, .f32⟩ : BufTy).Contents (Elt Ideal)) (x4 : (⟨S512, .f32⟩ : BufTy).Contents (Elt Ideal)) :
    val_main_v13 (F := Ideal) x0 x3 x4
      = Cert.Lib.RowAffine.rowAffine (A := 30000) (K := 38) (C := 512)
          (val_main_v8 (F := Ideal) x0) (val_main_v9 (F := Ideal) x3) (val_main_v11 (F := Ideal) x4) := by
  funext i
  obtain ⟨a, c, rfl⟩ : ∃ (a : Fin 30000) (c : Fin 512), i = ix2 a c := ⟨i 0, i 1, eq_ix2 i⟩
  rw [Cert.Lib.RowAffine.rowAffine_apply]
  show val_main_v10 (F := Ideal) x0 x3 (ix2 a c) + val_main_v12 (F := Ideal) x4 (ix2 a c) = _
  rw [bias_apply]
  unfold val_main_v10
  rw [dot38_apply]

/-- (2) The closing step of a layer, for any aggregated array: with the five scalar arrays constant (0, 0.8, 0.2, 1, 0
    as their words), max(0·out + 1·(out·w), 0) with out = 0.8·agg + 0.2·h0 is combine, entry by entry. -/
theorem comb_eq (Z C8 C2 O Z' agg h0 : FVec Ideal S30000x512 .f32) (w : FVec Ideal S512x512 .f32)
    (hZ : ∀ i, Z i = Ideal.ofBits .f32 0x00000000#32) (hC8 : ∀ i, C8 i = Ideal.ofBits .f32 0x3F4CCCCD#32)
    (hC2 : ∀ i, C2 i = Ideal.ofBits .f32 0x3E4CCCCD#32) (hO : ∀ i, O i = Ideal.ofBits .f32 0x3F800000#32)
    (hZ' : ∀ i, Z' i = Ideal.ofBits .f32 0x00000000#32) :
    maximumf (F := Ideal)
        (addf (F := Ideal) (mulf (F := Ideal) Z (addf (F := Ideal) (mulf (F := Ideal) C8 agg) (mulf (F := Ideal) C2 h0)))
          (mulf (F := Ideal) O
            (Host.dotGeneral (F := Ideal) dot_S30000x512_S512x512_S30000x512_1_0_0_1_n_n none
              (addf (F := Ideal) (mulf (F := Ideal) C8 agg) (mulf (F := Ideal) C2 h0)) w)))
        Z'
      = Cert.Gcn.combine (A := 30000) agg h0 w := by
  funext i
  obtain ⟨a, c, rfl⟩ : ∃ (a : Fin 30000) (c : Fin 512), i = ix2 a c := ⟨i 0, i 1, eq_ix2 i⟩
  rw [Cert.Gcn.combine_apply]
  simp only [maximumf_apply, addf_apply, mulf_apply, dot512_apply, hZ, hC8, hC2, hO, hZ', Cert.Gcn.mix]

/-- (3a) Layer 1: its stages are the closing step over the aggregation of h0. -/
theorem v64_eq (x0 : (⟨S30000x41, .f32⟩ : BufTy).Contents (Elt Ideal)) (x1 : (⟨S2x240000, .i32⟩ : BufTy).Contents (Elt Ideal)) (x2 : (⟨S240000x4, .f32⟩ : BufTy).Contents (Elt Ideal)) (x3 : (⟨S512x38, .f32⟩ : BufTy).Contents (Elt Ideal)) (x4 : (⟨S512, .f32⟩ : BufTy).Contents (Elt Ideal)) (x5 : (⟨S512x512, .f32⟩ : BufTy).Contents (Elt Ideal)) :
    val_main_v64 (F := Ideal) x0 x1 x2 x3 x4 x5
      = Cert.Gcn.combine (A := 30000) (aggR x1 x2 (val_main_v13 (F := Ideal) x0 x3 x4)) (val_main_v13 (F := Ideal) x0 x3 x4) x5 := by
  unfold val_main_v64 val_main_v63 val_main_v59 val_main_v62 val_main_v60 val_main_v57 val_main_v54 val_main_v56 val_main_v52
    val_main_v49 val_main_v46
  exact comb_eq (val_main_v58 (F := Ideal)) (val_main_v53 (F := Ideal)) (val_main_v55 (F := Ideal)) (val_main_v61 (F := Ideal))
    (val_main_call2_v0 (F := Ideal)) (aggR x1 x2 (val_main_v13 (F := Ideal) x0 x3 x4)) (val_main_v13 (F := Ideal) x0 x3 x4) x5
    (fun _ => rfl) (fun _ => rfl) (fun _ => rfl) (fun _ => rfl) (fun _ => rfl)

/-- (3b) Layer 2: the same closing step over the aggregation of layer 1's output (its index and weight stages are
    those of layer 1 under other names). -/
theorem v89_eq (x0 : (⟨S30000x41, .f32⟩ : BufTy).Contents (Elt Ideal)) (x1 : (⟨S2x240000, .i32⟩ : BufTy).Contents (Elt Ideal)) (x2 : (⟨S240000x4, .f32⟩ : BufTy).Contents (Elt Ideal)) (x3 : (⟨S512x38, .f32⟩ : BufTy).Contents (Elt Ideal)) (x4 : (⟨S512, .f32⟩ : BufTy).Contents (Elt Ideal)) (x5 : (⟨S512x512, .f32⟩ : BufTy).Contents (Elt Ideal)) (x6 : (⟨S512x512, .f32⟩ : BufTy).Contents (Elt Ideal)) :
    val_main_v89 (F := Ideal) x0 x1 x2 x3 x4 x5 x6
      = Cert.Gcn.combine (A := 30000) (aggR x1 x2 (val_main_v64 (F := Ideal) x0 x1 x2 x3 x4 x5)) (val_main_v13 (F := Ideal) x0 x3 x4) x6 := by
  unfold val_main_v89 val_main_v88 val_main_v84 val_main_v87 val_main_v85 val_main_v82 val_main_v79 val_main_v81 val_main_v77
    val_main_v74 val_main_v71
  exact comb_eq (val_main_v83 (F := Ideal)) (val_main_v78 (F := Ideal)) (val_main_v80 (F := Ideal)) (val_main_v86 (F := Ideal))
    (val_main_call3_v0 (F := Ideal)) (aggR x1 x2 (val_main_v64 (F := Ideal) x0 x1 x2 x3 x4 x5)) (val_main_v13 (F := Ideal) x0 x3 x4) x6
    (fun _ => rfl) (fun _ => rfl) (fun _ => rfl) (fun _ => rfl) (fun _ => rfl)

/-- (3c) Layer 3: the same over the aggregation of layer 2's output. -/
theorem v114_eq (x0 : (⟨S30000x41, .f32⟩ : BufTy).Contents (Elt Ideal)) (x1 : (⟨S2x240000, .i32⟩ : BufTy).Contents (Elt Ideal)) (x2 : (⟨S240000x4, .f32⟩ : BufTy).Contents (Elt Ideal)) (x3 : (⟨S512x38, .f32⟩ : BufTy).Contents (Elt Ideal)) (x4 : (⟨S512, .f32⟩ : BufTy).Contents (Elt Ideal)) (x5 : (⟨S512x512, .f32⟩ : BufTy).Contents (Elt Ideal)) (x6 : (⟨S512x512, .f32⟩ : BufTy).Contents (Elt Ideal)) (x7 : (⟨S512x512, .f32⟩ : BufTy).Contents (Elt Ideal)) :
    val_main_v114 (F := Ideal) x0 x1 x2 x3 x4 x5 x6 x7
      = Cert.Gcn.combine (A := 30000) (aggR x1 x2 (val_main_v89 (F := Ideal) x0 x1 x2 x3 x4 x5 x6)) (val_main_v13 (F := Ideal) x0 x3 x4) x7 := by
  unfold val_main_v114 val_main_v113 val_main_v109 val_main_v112 val_main_v110 val_main_v107 val_main_v104 val_main_v106 val_main_v102
    val_main_v99 val_main_v96
  exact comb_eq (val_main_v108 (F := Ideal)) (val_main_v103 (F := Ideal)) (val_main_v105 (F := Ideal)) (val_main_v111 (F := Ideal))
    (val_main_call4_v0 (F := Ideal)) (aggR x1 x2 (val_main_v89 (F := Ideal) x0 x1 x2 x3 x4 x5 x6)) (val_main_v13 (F := Ideal) x0 x3 x4) x7
    (fun _ => rfl) (fun _ => rfl) (fun _ => rfl) (fun _ => rfl) (fun _ => rfl)

/-- (4) The reference's result is the three-layer network over the reference's own aggregation. -/
theorem ref_eq (m : (ℓ : Loc nD τ sig) → Buf (Elt Ideal) ℓ) (c : Dev nD) :
    Cert.ReferenceIdeal.Value.res_main_v114 (F := Ideal) m c
      = Cert.Gcn.net (aggR (m ((c.tc : Thread nD τ).loc main_arg1)) (m ((c.tc : Thread nD τ).loc main_arg2)))
          (Cert.Lib.RowAffine.rowAffine (A := 30000) (K := 38) (C := 512)
            (val_main_v8 (F := Ideal) (m ((c.tc : Thread nD τ).loc main_arg0)))
            (val_main_v9 (F := Ideal) (m ((c.tc : Thread nD τ).loc main_arg3)))
            (val_main_v11 (F := Ideal) (m ((c.tc : Thread nD τ).loc main_arg4))))
          (m ((c.tc : Thread nD τ).loc main_arg5)) (m ((c.tc : Thread nD τ).loc main_arg6)) (m ((c.tc : Thread nD τ).loc main_arg7)) := by
  rw [val_main_v114_eq, v114_eq, v89_eq, v64_eq, lin_eq]
  rfl

end Cert.ReferenceIdeal.RefValue

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.Bridge.lean ====
/-
  The two programs compute the same host quantities.

  Both programs slice the features, transpose the first layer's weights, derive the edge weights, the wrapped node
  indices and the symmetric normalisation, and aggregate over the graph by the same operations in the same order; the
  one difference is the bias, which the kernel reshapes into a one-row matrix where the reference broadcasts it into
  one: at (0, q) both hold b1[q].
-/
import proofs.«141229_j30382598652516_1_alg».proof.Proof.KFold
import proofs.«141229_j30382598652516_1_alg».proof.Proof.RefValue
import proofs.«141229_j30382598652516_1_alg».proof.Proof.LibLayout

set_option maxRecDepth 16384

noncomputable section

namespace Cert.Proof.Bridge

open Idealize.ShloMosaic Idealize.ShloMosaic.TcCoe Idealize.ShloMosaic.ValueIdx
open Cert.KernelIdeal.KFold Cert.ReferenceIdeal.RefValue

/-- The features used. -/
theorem feat_eq (x0 : FVec Ideal Cert.ReferenceIdeal.S30000x41 .f32) :
    Cert.ReferenceIdeal.Read.val_main_v8 (F := Ideal) x0 = featOf x0 := rfl

/-- The first layer's weights, transposed. -/
theorem w1t_eq (x3 : FVec Ideal Cert.ReferenceIdeal.S512x38 .f32) :
    Cert.ReferenceIdeal.Read.val_main_v9 (F := Ideal) x3 = w1tOf x3 := rfl

/-- The bias as one row: broadcast into a row, or reshaped into one, it holds b1[q] at (0, q). -/
theorem row_eq (x4 : FVec Ideal Cert.ReferenceIdeal.S512 .f32) :
    Cert.ReferenceIdeal.Read.val_main_v11 (F := Ideal) x4 = rowOf x4 := by
  funext i
  obtain ⟨z, q, rfl⟩ : ∃ (z : Fin 1) (q : Fin 512), i = ix2 z q := ⟨i 0, i 1, eq_ix2 i⟩
  rw [Cert.ReferenceIdeal.Read.val_main_v11_apply]
  unfold rowOf
  refine Eq.trans ?_ (Cert.Lib.Layout.rowCast_apply (B := 512) x4 _ z q).symm
  exact congrArg x4 (funext fun a => match a with | ⟨0, _⟩ => rfl)

/-- The graph aggregation: the same scatter-add of the same gathered, weighted rows. -/
theorem agg_eq (x1 : (⟨Cert.ReferenceIdeal.S2x240000, .i32⟩ : BufTy).Contents (Elt Ideal))
    (x2 : FVec Ideal Cert.ReferenceIdeal.S240000x4 .f32) (h : FVec Ideal Cert.ReferenceIdeal.S30000x512 .f32) :
    aggR x1 x2 h = aggOf (rowsOf x1) (colsOf x1) (normOf (rowsOf x1) (colsOf x1) (wgtOf x2)) h := by
  unfold aggR aggOf normOf dinvOf degOf wrapIdx rowsOf colsOf wgtOf
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_cst, Cert.ReferenceIdeal.Read.val_main_v6, Cert.ReferenceIdeal.Read.val_main_v7, Cert.ReferenceIdeal.Read.val_main_cst_0, Cert.ReferenceIdeal.Read.val_main_v14, Cert.ReferenceIdeal.Read.val_main_v15, Cert.ReferenceIdeal.Read.val_main_v16, Cert.ReferenceIdeal.Read.val_main_cst_1, Cert.ReferenceIdeal.Read.val_main_v17, Cert.ReferenceIdeal.Read.val_main_v18, Cert.ReferenceIdeal.Read.val_main_cst_2, Cert.ReferenceIdeal.Read.val_main_call0_v0, Cert.ReferenceIdeal.Read.val_main_call0_v1, Cert.ReferenceIdeal.Read.val_main_v19, Cert.ReferenceIdeal.Read.val_main_cst_3, Cert.ReferenceIdeal.Read.val_main_v20, Cert.ReferenceIdeal.Read.val_main_v21, Cert.ReferenceIdeal.Read.val_main_v22, Cert.ReferenceIdeal.Read.val_main_cst_4, Cert.ReferenceIdeal.Read.val_main_call1_v0, Cert.ReferenceIdeal.Read.val_main_call1_v1, Cert.ReferenceIdeal.Read.val_main_v23, Cert.ReferenceIdeal.Read.val_main_c, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31, Cert.ReferenceIdeal.Read.val_main_c_6, Cert.ReferenceIdeal.Read.val_main_v32, Cert.ReferenceIdeal.Read.val_main_v33, Cert.ReferenceIdeal.Read.val_main_c_7, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_c_8, Cert.ReferenceIdeal.Read.val_main_v40, Cert.ReferenceIdeal.Read.val_main_v41, Cert.ReferenceIdeal.Read.val_main_c_9, Cert.ReferenceIdeal.Read.val_main_v42, Cert.ReferenceIdeal.Read.val_main_v43, Cert.ReferenceIdeal.Read.val_main_v44, Cert.ReferenceIdeal.Read.val_main_v45, Cert.ReferenceIdeal.Read.val_main_v47, Cert.ReferenceIdeal.Read.val_main_v48, Cert.ReferenceIdeal.Read.val_main_cst_10, Cert.ReferenceIdeal.Read.val_main_v50, Cert.ReferenceIdeal.Read.val_main_v51]
  rfl

end Cert.Proof.Bridge

end
-- ==== Proof.lean ====
/-
  The kernel and the reference compute one function.

  The program is a three-layer graph network on 30000 nodes and 240000 edges. The first layer is h0 = feat·W1ᵀ + b1;
  each further layer aggregates the previous activations over the graph (every edge carries its source row, scaled by the
  symmetric normalisation, to its target node), mixes the result with h0 as out = 0.8·agg + 0.2·h0, and closes with
  max(0·out + 1·(out·Wc), 0). The kernel program runs the four matrix steps as pipelined regions of 30 row blocks and
  everything else on the host, exactly as the reference does; over the extended reals a block's rows of a product are
  the whole product's rows, the narrowing of the factors is the identity, and a product taken into a zero accumulator
  is the product, so block by block the regions leave the reference's arrays. No law that needs finiteness is used:
  both sides apply the same operations in the same order, entry by entry.

  The frames of the two kernel programs are the generated ones; the reference's is its generated run with the result
  dropped; the ideal pass rewrote nothing, so the idealization claim is trivial.
-/
import proofs.«141229_j30382598652516_1_alg».proof.Defs
import proofs.«141229_j30382598652516_1_alg».proof.Proof.Gen.Kernel
import proofs.«141229_j30382598652516_1_alg».proof.Proof.Gen.Kernel.Skeleton
import proofs.«141229_j30382598652516_1_alg».proof.Proof.Gen.Kernel.Launch
import proofs.«141229_j30382598652516_1_alg».proof.Proof.Gen.Kernel.Points
import proofs.«141229_j30382598652516_1_alg».proof.Proof.Gen.Kernel.Frame
import proofs.«141229_j30382598652516_1_alg».proof.Proof.Gen.KernelIdeal
import proofs.«141229_j30382598652516_1_alg».proof.Proof.Gen.KernelIdeal.Skeleton
import proofs.«141229_j30382598652516_1_alg».proof.Proof.Gen.KernelIdeal.Launch
import proofs.«141229_j30382598652516_1_alg».proof.Proof.Gen.KernelIdeal.Points
import proofs.«141229_j30382598652516_1_alg».proof.Proof.Gen.KernelIdeal.Frame
import proofs.«141229_j30382598652516_1_alg».proof.Proof.Gen.ReferenceIdeal
import proofs.«141229_j30382598652516_1_alg».proof.Proof.Gen.Pre_finite_inputs
import Idealize.ShloMosaic.Adequacy
import Idealize.ShloMosaic.Init
import proofs.«141229_j30382598652516_1_alg».proof.Proof.Gen.ReferenceIdeal.Run
import proofs.«141229_j30382598652516_1_alg».proof.Proof.Gen.ReferenceIdeal.Read
import proofs.«141229_j30382598652516_1_alg».proof.Proof.KRun
import proofs.«141229_j30382598652516_1_alg».proof.Proof.KFold
import proofs.«141229_j30382598652516_1_alg».proof.Proof.Region0
import proofs.«141229_j30382598652516_1_alg».proof.Proof.Region1
import proofs.«141229_j30382598652516_1_alg».proof.Proof.Region2
import proofs.«141229_j30382598652516_1_alg».proof.Proof.Region3
import proofs.«141229_j30382598652516_1_alg».proof.Proof.RefValue
import proofs.«141229_j30382598652516_1_alg».proof.Proof.Bridge

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's network, written with its own stages, is the kernel program's: the host quantities agree piece by
    piece, and the three closing steps and the first layer are the same whole-array functions on both sides. -/
theorem net_eq (x0 : FVec Ideal Cert.ReferenceIdeal.S30000x41 .f32)
    (x1 : (⟨Cert.ReferenceIdeal.S2x240000, .i32⟩ : BufTy).Contents (Elt Ideal))
    (x2 : FVec Ideal Cert.ReferenceIdeal.S240000x4 .f32) (x3 : FVec Ideal Cert.ReferenceIdeal.S512x38 .f32)
    (x4 : FVec Ideal Cert.ReferenceIdeal.S512 .f32) (x5 x6 x7 : FVec Ideal Cert.ReferenceIdeal.S512x512 .f32) :
    Cert.Gcn.net (Cert.ReferenceIdeal.RefValue.aggR x1 x2)
        (Cert.Lib.RowAffine.rowAffine (A := 30000) (K := 38) (C := 512)
          (Cert.ReferenceIdeal.Read.val_main_v8 (F := Ideal) x0) (Cert.ReferenceIdeal.Read.val_main_v9 (F := Ideal) x3)
          (Cert.ReferenceIdeal.Read.val_main_v11 (F := Ideal) x4)) x5 x6 x7
      = Cert.Gcn.net
          (Cert.KernelIdeal.KFold.aggOf (Cert.KernelIdeal.KFold.rowsOf x1) (Cert.KernelIdeal.KFold.colsOf x1)
            (Cert.KernelIdeal.KFold.normOf (Cert.KernelIdeal.KFold.rowsOf x1) (Cert.KernelIdeal.KFold.colsOf x1) (Cert.KernelIdeal.KFold.wgtOf x2)))
          (Cert.Lib.RowAffine.rowAffine (A := 30000) (K := 38) (C := 512)
            (Cert.KernelIdeal.KFold.featOf x0) (Cert.KernelIdeal.KFold.w1tOf x3) (Cert.KernelIdeal.KFold.rowOf x4)) x5 x6 x7 := by
  rw [Cert.Proof.Bridge.feat_eq, Cert.Proof.Bridge.w1t_eq, Cert.Proof.Bridge.row_eq]
  exact congrArg (fun A => Cert.Gcn.net A _ x5 x6 x7) (funext fun h => Cert.Proof.Bridge.agg_eq x1 x2 h)

/-- Run from memories that agree on the arguments, both idealized programs end with the same result array: the
    three-layer network of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.net (Cert.KernelIdeal.KFold.aggAt m c) (Cert.KernelIdeal.KFold.h0At m c)
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KFold.result m ρ Cert.KernelIdeal.Region0.arr0 Cert.KernelIdeal.Region1.arr1
          Cert.KernelIdeal.Region2.arr2 Cert.KernelIdeal.Region3.arr3 c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.RefValue.ref_eq, e0, e1, e2, e3, e4, e5, e6, e7]
    exact net_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
